-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S512x128 : Shape := ⟨2, ![512, 128]⟩
abbrev S2048x128 : Shape := ⟨2, ![2048, 128]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 15
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S3072x1024, .bf16⟩
  | .hbm, ⟨8, _⟩ => ⟨S1024x1024, .bf16⟩
  | .hbm, ⟨9, _⟩ => ⟨S1x3072, .f32⟩
  | .hbm, ⟨10, _⟩ => ⟨S4096x3072, .bf16⟩
  | .hbm, ⟨11, _⟩ => ⟨S4096x1024, .bf16⟩
  | .hbm, ⟨12, _⟩ => ⟨S1x1024, .f32⟩
  | .hbm, ⟨13, _⟩ => ⟨S4096x1024, .f32⟩
  | .hbm, ⟨14, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S3072x1024, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S512x128, .bf16⟩
  | .local _ .vmem, ⟨7, _⟩ => ⟨S512x128, .bf16⟩
  | .local _ .vmem, ⟨8, _⟩ => ⟨S2048x128, .bf16⟩
  | .local _ .vmem, ⟨9, _⟩ => ⟨S2048x128, .bf16⟩
  | .local _ .vmem, ⟨10, _⟩ => ⟨S2048x128, .bf16⟩
  | .local _ .vmem, ⟨11, _⟩ => ⟨S2048x128, .bf16⟩
  | .local _ .vmem, ⟨12, _⟩ => ⟨S512x128, .bf16⟩
  | .local _ .vmem, ⟨13, _⟩ => ⟨S512x128, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 8, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage1_0 : Fin 2 → Memref sig .tc .vmem S512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2x2048x1024_S4096x1024 : S2x2048x1024.ShapeCasts S4096x1024
  bitsLt_bf16_f32 : FTy.bits .bf16 < FTy.bits .f32
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  slices_S512x128_o0_64_S512x64 : S512x128.Slices ![0, 64] S512x64
  slices_S2048x128_o0_64_S2048x64 : S2048x128.Slices ![0, 64] S2048x64
  concatenates_S512x64_S512x64_S512x128_d1 : Shape.Concatenates [S512x64, S512x64] S512x128 1
  packedbf16_S512x128_S512x128_0_0 : (Rect.unit (s := S512x128) ![0, 0] S512x128.size inb_S512x128_S512x128_0_0).PackedRows (EltTy.packing .bf16)
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S3072x1024_S512x3072_1_1_0_0_n_n_wf : DotDims.WF S512x1024 S3072x1024 S512x3072 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x3072.size a
  hwx1_0 : ∀ i : grid1.Coords, EltTy.bits .bf16 = 32 ∨ (Rect.block (s := S4096x3072) S512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S4096x3072.size a
  hwx1_1 : ∀ i : grid1.Coords, EltTy.bits .bf16 = 32 ∨ (Rect.block (s := S4096x3072) S2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S4096x3072.size a
  hwx1_2 : ∀ i : grid1.Coords, EltTy.bits .bf16 = 32 ∨ (Rect.block (s := S4096x3072) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S4096x1024.size a
  hwx1_3 : ∀ i : grid1.Coords, EltTy.bits .bf16 = 32 ∨ (Rect.block (s := S4096x1024) S512x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S3072x1024_S512x3072_1_1_0_0_n_n : DotDims S512x1024 S3072x1024 S512x3072 where
  lhsContracting := [1]
  rhsContracting := [1]
  lhsNonContracting := [0]
  rhsNonContracting := [0]
  lhsBatch := []
  rhsBatch := []
  wf := dot_S512x1024_S3072x1024_S512x3072_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v6) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x3x16x64, .f32⟩
  | .hbm, ⟨10, _⟩ => ⟨S3x2x16x2048x64, .f32⟩
  | .hbm, ⟨11, _⟩ => ⟨S1x2x16x2048x64, .f32⟩
  | .hbm, ⟨12, _⟩ => ⟨S2x16x2048x64, .f32⟩
  | .hbm, ⟨13, _⟩ => ⟨S1x2x16x2048x64, .f32⟩
  | .hbm, ⟨14, _⟩ => ⟨S2x16x2048x64, .f32⟩
  | .hbm, ⟨15, _⟩ => ⟨S1x2x16x2048x64, .f32⟩
  | .hbm, ⟨16, _⟩ => ⟨S2x16x2048x64, .f32⟩
  | .hbm, ⟨17, _⟩ => ⟨S2x16x2048x2048, .f32⟩
  | .hbm, ⟨18, _⟩ => ⟨S_, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S_, .f32⟩
  | .hbm, ⟨24, _⟩ => ⟨S2x16x2048, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x2048, .f32⟩
  | .hbm, ⟨30, _⟩ => ⟨S_, .f32⟩
  | .hbm, ⟨31, _⟩ => ⟨S2x16x2048, .f32⟩
  | .hbm, ⟨32, _⟩ => ⟨S2x16x2048x1, .f32⟩
  | .hbm, ⟨33, _⟩ => ⟨S2x16x2048x2048, .f32⟩
  | .hbm, ⟨34, _⟩ => ⟨S2x16x2048x2048, .f32⟩
  | .hbm, ⟨35, _⟩ => ⟨S2x16x2048x64, .f32⟩
  | .hbm, ⟨36, _⟩ => ⟨S2x2048x16x64, .f32⟩
  | .hbm, ⟨37, _⟩ => ⟨S2x2048x1024, .f32⟩
  | .hbm, ⟨38, _⟩ => ⟨S2x2048x1024, .f32⟩
  | .hbm, ⟨39, _⟩ => ⟨S1x1x1024, .f32⟩
  | .hbm, ⟨40, _⟩ => ⟨S2x2048x1024, .f32⟩
  | .hbm, ⟨41, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x3x16x64 : S2x2048x3072.ShapeCasts S2x2048x3x16x64
  transposes_S2x2048x3x16x64_S3x2x16x2048x64_2_0_3_1_4 : S2x2048x3x16x64.Transposes [2, 0, 3, 1, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.K.Body0.lean ====
/-
  Region 0 (the QKV projection, a row-tiled matmul plus bias): what the kernel body leaves in its output
  block as a function of its three input blocks, the body's triple, the pipeline's proof data at a
  parameter `V` (the buffer contents when the region is entered), and the body obligation at every point.
-/
import proofs.«423763_j74002286510487_3_alg».proof.Proof.Gen.Kernel.Launch
import proofs.«423763_j74002286510487_3_alg».proof.Proof.Gen.Kernel.Skeleton
import proofs.«423763_j74002286510487_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S512x1024 := Rect.unit (s := S512x1024) ![0, 0] S512x1024.size inb_S512x1024_S512x1024_0_0
abbrev r0_w : Rect S3072x1024 := Rect.unit (s := S3072x1024) ![0, 0] S3072x1024.size inb_S3072x1024_S3072x1024_0_0
abbrev r0_b : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-- The output block after the body: its one whole-block store, of the payload of the three loaded blocks. -/
def out0 (x0 : Vec F S512x1024 .bf16) (x1 : Vec F S3072x1024 .bf16) (x2 : Vec F S1x3072 .f32) : Vec F S512x3072 .bf16 :=
  View.canon [⟨r0_o, k0_pay1 (View.ld x0 r0_x) (View.ld x1 r0_w) (View.ld x2 r0_b)⟩]

theorem cover0 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging memrefs: the inputs at contents `x0 x1 x2`, the output at anything; it returns with the
    inputs as they were and the output at `out0` of them. -/
theorem sound_kernel0 (c : Dev nD) (E : Set ℕ) (i : grid0.Coords)
    (arg1 : Memref sig .tc .vmem S512x1024 .bf16) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .bf16) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data of pipeline 0 on core `c`: the arrays as the region finds them; after the body each input's buffer
    at its block and the output's at `out0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1 (attention over two heads per block: per head, scaled query times keys, row softmax, times values; the two
  heads' results side by side): what the kernel body leaves in its output block as a function of its query, key and
  value blocks, the body's triple, the pipeline's proof data at a parameter `V` (the buffer contents when the region
  is entered), and the body obligation at every point. The three input windows read one array, at three shares of it.
-/
import proofs.«423763_j74002286510487_3_alg».proof.Proof.Gen.Kernel.Launch
import proofs.«423763_j74002286510487_3_alg».proof.Proof.Gen.Kernel.Skeleton
import proofs.«423763_j74002286510487_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_q : Rect S512x128 := Rect.unit (s := S512x128) ![0, 0] S512x128.size inb_S512x128_S512x128_0_0
abbrev r1_kv : Rect S2048x128 := Rect.unit (s := S2048x128) ![0, 0] S2048x128.size inb_S2048x128_S2048x128_0_0

/-- The output block after the body: its one whole-block store, of the payload of the three loaded blocks. -/
def out1 (x0 : Vec F S512x128 .bf16) (x1 x2 : Vec F S2048x128 .bf16) : Vec F S512x128 .bf16 :=
  View.canon [⟨r1_q, k1_pay1 (k1_pay5 (View.ld x0 r1_q) (View.ld x1 r1_kv) (View.ld x2 r1_kv)) (k1_pay6 (View.ld x2 r1_kv))
    (k1_pay8 (View.ld x0 r1_q) (View.ld x1 r1_kv)) (k1_pay9 (View.ld x0 r1_q) (View.ld x1 r1_kv))⟩]

theorem cover1 (p0 : Vec F S512x128 .bf16) (y : S512x128.Idx) :
    ∃ pc ∈ ([⟨r1_q, p0⟩] : List (View.Piece (Elt F) S512x128 .bf16)), y ∈ pc.1.set :=
  View.cover_of_tiled [⟨r1_q, p0⟩] S512x128.size (by rfl) y

set_option maxHeartbeats 1000000 in
/-- The body on whole staging memrefs: the inputs at contents `x0 x1 x2`, the output at anything; it returns with the
    inputs as they were and the output at `out1` of them. -/
theorem sound_kernel1 (c : Dev nD) (E : Set ℕ) (i : grid1.Coords)
    (arg3 : Memref sig .tc .vmem S512x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S512x128 .bf16) (harg6 : arg6.IsWhole)
    (x0 : Vec F S512x128 .bf16) (x1 x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of pipeline 1 on core `c`: the arrays as the region finds them; after the body each input's buffer
    at its block and the output's at `out1` of the input blocks; nothing owed. The three inputs are blocks of one array,
    held at three shares that compose to the full share; the output's array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2 (the output projection, a row-tiled matmul plus bias): what the kernel body leaves in its output
  block as a function of its three input blocks, the body's triple, the pipeline's proof data at a
  parameter `V` (the buffer contents when the region is entered), and the body obligation at every point.
-/
import proofs.«423763_j74002286510487_3_alg».proof.Proof.Gen.Kernel.Launch
import proofs.«423763_j74002286510487_3_alg».proof.Proof.Gen.Kernel.Skeleton
import proofs.«423763_j74002286510487_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0
abbrev r2_o : Rect S512x1024 := Rect.unit (s := S512x1024) ![0, 0] S512x1024.size inb_S512x1024_S512x1024_0_0

/-- The output block after the body: its one whole-block store, of the payload of the three loaded blocks. -/
def out2 (x0 : Vec F S512x1024 .bf16) (x1 : Vec F S1024x1024 .bf16) (x2 : Vec F S1x1024 .f32) : Vec F S512x1024 .f32 :=
  View.canon [⟨r2_o, k2_pay1 (View.ld x0 r2_x) (View.ld x1 r2_w) (View.ld x2 r2_b)⟩]

theorem cover2 (p0 : Vec F S512x1024 .f32) (y : S512x1024.Idx) :
    ∃ pc ∈ ([⟨r2_o, p0⟩] : List (View.Piece (Elt F) S512x1024 .f32)), y ∈ pc.1.set :=
  View.cover_of_tiled [⟨r2_o, p0⟩] S512x1024.size (by rfl) y

set_option maxHeartbeats 1000000 in
/-- The body on whole staging memrefs: the inputs at contents `x0 x1 x2`, the output at anything; it returns with the
    inputs as they were and the output at `out2` of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of pipeline 2 on core `c`: the arrays as the region finds them; after the body each input's buffer
    at its block and the output's at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Share1.lean ====
/-
  Region 1 reads ONE array through three input windows.  The array, held whole at the full share when the
  region is entered, is split into three shares that compose to the full one, a share per window; when the
  region is left the three shares, all still at the array's entry contents, are joined again.
-/
import proofs.«423763_j74002286510487_3_alg».proof.Proof.Gen.Kernel.Launch
import proofs.«423763_j74002286510487_3_alg».proof.Proof.Gen.Kernel.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

theorem arrays1_iff (c : Dev nD) (dat : Dat τ (Elt F) Unit ℕ (UR sig nD τ) ℕ cfg1 c)
    (hq0 : dat.q 0 = fullShare.left) (hq1 : dat.q 1 = fullShare.right.left) (hq2 : dat.q 2 = fullShare.right.right)
    (Vc : (b : Ref sig .tc) → Buf (Elt F) ((c : Thread nD τ).loc b))
    (G : (w : Fin cfg1.W) → Buf (Elt F) ((cfg1.win w).arr.view.loc (c.tc : Thread nD τ)))
    (h0 : G 0 = Vc (Pipeline.arrRef spec1 0)) (h1 : G 1 = Vc (Pipeline.arrRef spec1 0)) (h2 : G 2 = Vc (Pipeline.arrRef spec1 0))
    (h3 : G 3 = Vc (Pipeline.arrRef spec1 3)) :
    (Pipeline.arrBufs spec1 c Vc : sProp 𝕄) ⊣⊢ dat.arrays G := by
  unfold Pipeline.arrBufs Dat.arrays
  rw [show (bigSep (Finset.univ.image (Pipeline.arrRef spec1)) fun b => (((c.tc : Thread nD τ).loc b) ↦{fullShare} Vc b : sProp 𝕄))
      = iprop((((c.tc : Thread nD τ).loc main_v5) ↦{fullShare} Vc main_v5) ∗ (((c.tc : Thread nD τ).loc main_v6) ↦{fullShare} Vc main_v6))
      from bigSep_eq_bigSepL_of_eq [main_v5, main_v6] (by decide) (by decide) _, bigSep_W1]
  rw [h0, h1, h2, h3]
  rw [show dat.share 0 = fullShare.left from by unfold Dat.share; rw [if_neg (by decide)]; exact hq0,
    show dat.share 1 = fullShare.right.left from by unfold Dat.share; rw [if_neg (by decide)]; exact hq1,
    show dat.share 2 = fullShare.right.right from by unfold Dat.share; rw [if_neg (by decide)]; exact hq2,
    show dat.share 3 = fullShare from by unfold Dat.share; rw [if_pos (by decide)]]
  rw [(arr_whole1 0).set_eq_univ, (arr_whole1 3).set_eq_univ]
  refine ⟨?_, ?_⟩
  · iintro ⟨H5, H6⟩
    ihave H := (pointsTo_share (PosShare.mem_left_op_right fullShare)).1 $$ H5
    icases H with ⟨Hl, Hr⟩
    ihave H' := (pointsTo_share (PosShare.mem_left_op_right fullShare.right)).1 $$ Hr
    icases H' with ⟨Hrl, Hrr⟩
    isplitl [Hl]; · iexact Hl
    isplitl [Hrl]; · iexact Hrl
    isplitl [Hrr]; · iexact Hrr
    iexact H6
  · iintro ⟨Hl, Hrl, Hrr, H6⟩
    isplitr [H6]
    · iapply (pointsTo_share (PosShare.mem_left_op_right fullShare)).2
      isplitl [Hl]; · iexact Hl
      iapply (pointsTo_share (PosShare.mem_left_op_right fullShare.right)).2
      isplitl [Hrl]; · iexact Hrl
      iexact Hrr
    · iexact H6

/-- Entering region 1: the core's unscoped buffers at `Vc` are the region's arrays at the proof data's entry contents,
    the shared array split among its three readers, beside the buffers that are no array of the region. -/
theorem entry1 (c : Dev nD) (dat : Dat τ (Elt F) Unit ℕ (UR sig nD τ) ℕ cfg1 c)
    (hq0 : dat.q 0 = fullShare.left) (hq1 : dat.q 1 = fullShare.right.left) (hq2 : dat.q 2 = fullShare.right.right)
    (Vc : (b : Ref sig .tc) → Buf (Elt F) ((c : Thread nD τ).loc b))
    (hA : ∀ w, dat.A w = Vc (Pipeline.arrRef spec1 w)) :
    (unscopedBufs c Vc : sProp 𝕄) ⊢ iprop(dat.arrays (dat.arrAt · 0) ∗ Pipeline.unscopedRest spec1 c Vc) := by
  rw [Pipeline.unscopedBufs_split₀ cfgs (1 : Fin 3) (by decide) c Vc]
  exact sep_mono (arrays1_iff c dat hq0 hq1 hq2 Vc (dat.arrAt · 0) (hA 0) (hA 1) (hA 2) (hA 3)).1 .rfl

/-- Leaving region 1: the arrays at their final contents (the inputs' unchanged, so the three shares join) and the
    bypassing buffers at `Vc` are the unscoped buffers at any `Vc'` that has the arrays there and agrees with `Vc` elsewhere. -/
theorem exit1 (c : Dev nD) (dat : Dat τ (Elt F) Unit ℕ (UR sig nD τ) ℕ cfg1 c)
    (hq0 : dat.q 0 = fullShare.left) (hq1 : dat.q 1 = fullShare.right.left) (hq2 : dat.q 2 = fullShare.right.right)
    (Vc Vc' : (b : Ref sig .tc) → Buf (Elt F) ((c : Thread nD τ).loc b))
    (h0 : dat.arrAt 0 cfg1.N = Vc' (Pipeline.arrRef spec1 0)) (h1 : dat.arrAt 1 cfg1.N = Vc' (Pipeline.arrRef spec1 0))
    (h2 : dat.arrAt 2 cfg1.N = Vc' (Pipeline.arrRef spec1 0)) (h3 : dat.arrAt 3 cfg1.N = Vc' (Pipeline.arrRef spec1 3))
    (hrest : ∀ b, b ∉ Finset.univ.image (Pipeline.arrRef spec1) → Vc' b = Vc b) :
    iprop(dat.arrays (dat.arrAt · cfg1.N) ∗ Pipeline.unscopedRest spec1 c Vc) ⊢ (unscopedBufs c Vc' : sProp 𝕄) := by
  rw [Pipeline.unscopedBufs_split₀ cfgs (1 : Fin 3) (by decide) c Vc']
  refine sep_mono (arrays1_iff c dat hq0 hq1 hq2 Vc' (dat.arrAt · cfg1.N) h0 h1 h2 h3).2 (Entails.of_eq ?_)
  unfold Pipeline.unscopedRest
  exact bigSep_congr fun b hb => by rw [hrest b (Finset.mem_sdiff.mp hb).2]

end Cert.Kernel.Hand

end
-- ==== Proof.K.Run.lean ====
/-
  The whole run of @main: host operations, the three regions, host operations, as one list of segments.
  Between segments core `c` holds every unscoped buffer whole at contents that are named here as a fold
  from the launch memory: a host stretch applies its operations; a region leaves its inputs as it found
  them and its output array at what the pipeline's write-backs give.  The run ends with every unscoped
  buffer at the last of these contents, from which the frame (the arguments unchanged) is read, and from
  which a value proof reads the result array.
-/
import proofs.«423763_j74002286510487_3_alg».proof.Proof.K.Body0
import proofs.«423763_j74002286510487_3_alg».proof.Proof.K.Body1
import proofs.«423763_j74002286510487_3_alg».proof.Proof.K.Body2
import proofs.«423763_j74002286510487_3_alg».proof.Proof.K.Share1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its output array at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1 (entered straight from region 0's exit): its output array `main_v6` at what its write-backs leave,
    every other buffer, the shared input array included, as entered. -/
def W3 (c : Dev nD) : Valuation τ sig (Elt F) :=
  Function.update (W2 m ρ c) (Proc.devRef .tc main_v6) ((dat1 (V2 m ρ) c).arrAt 3 cfg1.N)
theorem W3_out (c : Dev nD) : W3 m ρ c (Proc.devRef .tc main_v6) = (dat1 (V2 m ρ) c).arrAt 3 cfg1.N := by
  unfold W3; exact Function.update_self ..
theorem W3_of_ne (c : Dev nD) (b : Ref sig .tc) (hb : b ≠ main_v6) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the last host stretch: the end. -/
abbrev W6 : Dev nD → Valuation τ sig (Elt F) := fun c => StableHlo.after hostOps3 (W5 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0, entered at `W1` and left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered at `W2` and left at `W3`: its three input windows share the array `main_v5`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 c (dat1 (V2 m ρ) c) (q1_0 (V2 m ρ) c) (q1_1 (V2 m ρ) c) (q1_2 (V2 m ρ) c) (V2 m ρ c) (fun w => A_eq1 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hin : ∀ w : Fin cfg1.W, (cfg1.win w).isOut = false → (dat1 (V2 m ρ) c).arrAt w cfg1.N = V2 m ρ c (Pipeline.arrRef spec1 w) :=
      fun w hw => ((dat1 (V2 m ρ) c).arrAt_in w hw _).trans (A_eq1 (V2 m ρ) c w)
    have hjoin := exit1 c (dat1 (V2 m ρ) c) (q1_0 (V2 m ρ) c) (q1_1 (V2 m ρ) c) (q1_2 (V2 m ρ) c) (V2 m ρ c) (V3 m ρ c)
      ((hin 0 rfl).trans (W3_of_ne m ρ c main_v5 (by decide)).symm)
      ((hin 1 rfl).trans (W3_of_ne m ρ c main_v5 (by decide)).symm)
      ((hin 2 rfl).trans (W3_of_ne m ρ c main_v5 (by decide)).symm)
      (W3_out m ρ c).symm
      (fun b hb => W3_of_ne m ρ c b fun e => hb (Finset.mem_image.mpr ⟨3, Finset.mem_univ _, e.symm⟩))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2, entered at `W4` and left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.Kernel.Hand

end
-- ==== Proof.K.Frame.lean ====
/-
  The frame: no host stretch writes an argument array and no region may change one (an argument reaches a region
  only through an input window or bypasses it), so the contents at the last boundary, walked back through the
  fold, are the launch memory's at every argument.
-/
import proofs.«423763_j74002286510487_3_alg».proof.Proof.K.Run
import proofs.«423763_j74002286510487_3_alg».proof.Proof.Gen.Kernel.Regions

set_option maxRecDepth 16384

noncomputable section

namespace Cert.Kernel.Hand

open Cert.Kernel
open Cert.Kernel.Gen (hostOps0 hostOps2 hostOps3 hostOps0_W hostOps2_W hostOps3_W hostOps0_writes hostOps2_writes hostOps3_writes)
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no host stretch writes and that is no region's output ends as launched. -/
theorem W6_of (c : Dev nD) (a : Ref sig .tc) (h6 : a ∉ hostOps3_W) (h5 : ∀ w, Pipeline.arrRef spec2 w ≠ a) (h4 : a ∉ hostOps2_W)
    (h3 : a ≠ main_v6) (h2 : ∀ w, Pipeline.arrRef spec0 w ≠ a) (h1 : a ∉ hostOps0_W) :
    W6 m ρ c (Proc.devRef .tc a) = m ((c : Thread nD τ).loc a) :=
  (StableHlo.after_of_writes_sub hostOps3 _ hostOps3_writes h6).trans <|
    (W5_of_ne m ρ c a h5).trans <| (StableHlo.after_of_writes_sub hostOps2 _ hostOps2_writes h4).trans <|
    (W3_of_ne m ρ c a h3).trans <| (W2_of_ne m ρ c a h2).trans <|
    (StableHlo.after_of_writes_sub hostOps0 _ hostOps0_writes h1).trans rfl

theorem W6_arg0 (c : Dev nD) : W6 m ρ c (Proc.devRef .tc main_arg0) = m ((c : Thread nD τ).loc main_arg0) :=
  W6_of m ρ c main_arg0 (by decide) (by decide) (by decide) (by decide) (by decide) (by decide)
theorem W6_arg1 (c : Dev nD) : W6 m ρ c (Proc.devRef .tc main_arg1) = m ((c : Thread nD τ).loc main_arg1) :=
  W6_of m ρ c main_arg1 (by decide) (by decide) (by decide) (by decide) (by decide) (by decide)
theorem W6_arg2 (c : Dev nD) : W6 m ρ c (Proc.devRef .tc main_arg2) = m ((c : Thread nD τ).loc main_arg2) :=
  W6_of m ρ c main_arg2 (by decide) (by decide) (by decide) (by decide) (by decide) (by decide)
theorem W6_arg3 (c : Dev nD) : W6 m ρ c (Proc.devRef .tc main_arg3) = m ((c : Thread nD τ).loc main_arg3) :=
  W6_of m ρ c main_arg3 (by decide) (by decide) (by decide) (by decide) (by decide) (by decide)
theorem W6_arg4 (c : Dev nD) : W6 m ρ c (Proc.devRef .tc main_arg4) = m ((c : Thread nD τ).loc main_arg4) :=
  W6_of m ρ c main_arg4 (by decide) (by decide) (by decide) (by decide) (by decide) (by decide)

/-- The run with the result array and the five arguments read off the last boundary's contents. -/
theorem run_read : θ_run defs (onTc (τ := τ) (main (F := F))) ⟨m, fun _ => 0, ρ⟩ (fun r => ∀ c : Dev nD,
      r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v9 (by decide)),
     (h c _ (mem_uc main_arg0 (by decide))).trans (W6_arg0 m ρ c),
     (h c _ (mem_uc main_arg1 (by decide))).trans (W6_arg1 m ρ c),
     (h c _ (mem_uc main_arg2 (by decide))).trans (W6_arg2 m ρ c),
     (h c _ (mem_uc main_arg3 (by decide))).trans (W6_arg3 m ρ c),
     (h c _ (mem_uc main_arg4 (by decide))).trans (W6_arg4 m ρ c)⟩) (run_all m ρ)

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_read m ρ)

end Cert.Kernel.Hand

end
-- ==== Proof.KI.Body0.lean ====
/-
  Region 0 (the QKV projection, a row-tiled matmul plus bias): what the kernel body leaves in its output
  block as a function of its three input blocks, the body's triple, the pipeline's proof data at a
  parameter `V` (the buffer contents when the region is entered), and the body obligation at every point.
-/
import proofs.«423763_j74002286510487_3_alg».proof.Proof.Gen.KernelIdeal.Launch
import proofs.«423763_j74002286510487_3_alg».proof.Proof.Gen.KernelIdeal.Skeleton
import proofs.«423763_j74002286510487_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetched it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S512x1024 := Rect.unit (s := S512x1024) ![0, 0] S512x1024.size inb_S512x1024_S512x1024_0_0
abbrev r0_w : Rect S3072x1024 := Rect.unit (s := S3072x1024) ![0, 0] S3072x1024.size inb_S3072x1024_S3072x1024_0_0
abbrev r0_b : Rect S1x3072 := Rect.unit (s := S1x3072) ![0, 0] S1x3072.size inb_S1x3072_S1x3072_0_0
abbrev r0_o : Rect S512x3072 := Rect.unit (s := S512x3072) ![0, 0] S512x3072.size inb_S512x3072_S512x3072_0_0

/-- The output block after the body: its one whole-block store, of the payload of the three loaded blocks. -/
def out0 (x0 : Vec F S512x1024 .bf16) (x1 : Vec F S3072x1024 .bf16) (x2 : Vec F S1x3072 .f32) : Vec F S512x3072 .bf16 :=
  View.canon [⟨r0_o, k0_pay1 (View.ld x0 r0_x) (View.ld x1 r0_w) (View.ld x2 r0_b)⟩]

theorem cover0 (p0 : Vec F S512x3072 .bf16) (y : S512x3072.Idx) :
    ∃ pc ∈ ([⟨r0_o, p0⟩] : List (View.Piece (Elt F) S512x3072 .bf16)), y ∈ pc.1.set :=
  View.cover_of_tiled [⟨r0_o, p0⟩] S512x3072.size (by rfl) y

set_option maxHeartbeats 1000000 in
/-- The body on whole staging memrefs: the inputs at contents `x0 x1 x2`, the output at anything; it returns with the
    inputs as they were and the output at `out0` of them. -/
theorem sound_kernel0 (c : Dev nD) (E : Set ℕ) (i : grid0.Coords)
    (arg1 : Memref sig .tc .vmem S512x1024 .bf16) (harg1 : arg1.IsWhole) (arg2 : Memref sig .tc .vmem S3072x1024 .bf16) (harg2 : arg2.IsWhole)
    (arg3 : Memref sig .tc .vmem S1x3072 .f32) (harg3 : arg3.IsWhole) (arg4 : Memref sig .tc .vmem S512x3072 .bf16) (harg4 : arg4.IsWhole)
    (x0 : Vec F S512x1024 .bf16) (x1 : Vec F S3072x1024 .bf16) (x2 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _)

/-- The proof data of pipeline 0 on core `c`: the arrays as the region finds them; after the body each input's buffer
    at its block and the output's at `out0` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1 (attention over two heads per block: per head, scaled query times keys, row softmax, times values; the two
  heads' results side by side): what the kernel body leaves in its output block as a function of its query, key and
  value blocks, the body's triple, the pipeline's proof data at a parameter `V` (the buffer contents when the region
  is entered), and the body obligation at every point. The three input windows read one array, at three shares of it.
-/
import proofs.«423763_j74002286510487_3_alg».proof.Proof.Gen.KernelIdeal.Launch
import proofs.«423763_j74002286510487_3_alg».proof.Proof.Gen.KernelIdeal.Skeleton
import proofs.«423763_j74002286510487_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetched it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_q : Rect S512x128 := Rect.unit (s := S512x128) ![0, 0] S512x128.size inb_S512x128_S512x128_0_0
abbrev r1_kv : Rect S2048x128 := Rect.unit (s := S2048x128) ![0, 0] S2048x128.size inb_S2048x128_S2048x128_0_0

/-- The output block after the body: its one whole-block store, of the payload of the three loaded blocks. -/
def out1 (x0 : Vec F S512x128 .bf16) (x1 x2 : Vec F S2048x128 .bf16) : Vec F S512x128 .bf16 :=
  View.canon [⟨r1_q, k1_pay1 (k1_pay5 (View.ld x0 r1_q) (View.ld x1 r1_kv) (View.ld x2 r1_kv)) (k1_pay6 (View.ld x2 r1_kv))
    (k1_pay8 (View.ld x0 r1_q) (View.ld x1 r1_kv)) (k1_pay9 (View.ld x0 r1_q) (View.ld x1 r1_kv))⟩]

theorem cover1 (p0 : Vec F S512x128 .bf16) (y : S512x128.Idx) :
    ∃ pc ∈ ([⟨r1_q, p0⟩] : List (View.Piece (Elt F) S512x128 .bf16)), y ∈ pc.1.set :=
  View.cover_of_tiled [⟨r1_q, p0⟩] S512x128.size (by rfl) y

set_option maxHeartbeats 1000000 in
/-- The body on whole staging memrefs: the inputs at contents `x0 x1 x2`, the output at anything; it returns with the
    inputs as they were and the output at `out1` of them. -/
theorem sound_kernel1 (c : Dev nD) (E : Set ℕ) (i : grid1.Coords)
    (arg3 : Memref sig .tc .vmem S512x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S512x128 .bf16) (harg6 : arg6.IsWhole)
    (x0 : Vec F S512x128 .bf16) (x1 x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out1 x0 x1 x2)) -∗ K ⟨⟩))
      ⊢ wp frame (wpE (defs₀ (F := F)) Variants.none c none) E (cc1__attn_kernel i arg3 harg3 arg4 harg4 arg5 harg5 arg6 harg6) K := by
  simp only [cc1__attn_kernel_eq_skeleton]; unfold cc1__attn_kernel_skel
  simp only [k1_part1_eq_skeleton]; unfold k1_part1_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-- The proof data of pipeline 1 on core `c`: the arrays as the region finds them; after the body each input's buffer
    at its block and the output's at `out1` of the input blocks; nothing owed. The three inputs are blocks of one array,
    held at three shares that compose to the full share; the output's array at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 (iblk1 V c 0 t) (iblk1 V c 1 t) (iblk1 V c 2 t)
  Φ _ := Pipeline.ΦA spec1 c
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1 (iblk1 V c 0 t) (iblk1 V c 1 t) (iblk1 V c 2 t) := by dsimp only [dat1]

theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2 (the output projection, a row-tiled matmul plus bias): what the kernel body leaves in its output
  block as a function of its three input blocks, the body's triple, the pipeline's proof data at a
  parameter `V` (the buffer contents when the region is entered), and the body obligation at every point.
-/
import proofs.«423763_j74002286510487_3_alg».proof.Proof.Gen.KernelIdeal.Launch
import proofs.«423763_j74002286510487_3_alg».proof.Proof.Gen.KernelIdeal.Skeleton
import proofs.«423763_j74002286510487_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetched it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_x : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0
abbrev r2_o : Rect S512x1024 := Rect.unit (s := S512x1024) ![0, 0] S512x1024.size inb_S512x1024_S512x1024_0_0

/-- The output block after the body: its one whole-block store, of the payload of the three loaded blocks. -/
def out2 (x0 : Vec F S512x1024 .bf16) (x1 : Vec F S1024x1024 .bf16) (x2 : Vec F S1x1024 .f32) : Vec F S512x1024 .f32 :=
  View.canon [⟨r2_o, k2_pay1 (View.ld x0 r2_x) (View.ld x1 r2_w) (View.ld x2 r2_b)⟩]

theorem cover2 (p0 : Vec F S512x1024 .f32) (y : S512x1024.Idx) :
    ∃ pc ∈ ([⟨r2_o, p0⟩] : List (View.Piece (Elt F) S512x1024 .f32)), y ∈ pc.1.set :=
  View.cover_of_tiled [⟨r2_o, p0⟩] S512x1024.size (by rfl) y

set_option maxHeartbeats 1000000 in
/-- The body on whole staging memrefs: the inputs at contents `x0 x1 x2`, the output at anything; it returns with the
    inputs as they were and the output at `out2` of them. -/
theorem sound_kernel2 (c : Dev nD) (E : Set ℕ) (i : grid2.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The proof data of pipeline 2 on core `c`: the arrays as the region finds them; after the body each input's buffer
    at its block and the output's at `out2` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Share1.lean ====
/-
  Region 1 reads ONE array through three input windows.  The array, held whole at the full share when the
  region is entered, is split into three shares that compose to the full one, a share per window; when the
  region is left the three shares, all still at the array's entry contents, are joined again.
-/
import proofs.«423763_j74002286510487_3_alg».proof.Proof.Gen.KernelIdeal.Launch
import proofs.«423763_j74002286510487_3_alg».proof.Proof.Gen.KernelIdeal.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

theorem arrays1_iff (c : Dev nD) (dat : Dat τ (Elt F) Unit ℕ (UR sig nD τ) ℕ cfg1 c)
    (hq0 : dat.q 0 = fullShare.left) (hq1 : dat.q 1 = fullShare.right.left) (hq2 : dat.q 2 = fullShare.right.right)
    (Vc : (b : Ref sig .tc) → Buf (Elt F) ((c : Thread nD τ).loc b))
    (G : (w : Fin cfg1.W) → Buf (Elt F) ((cfg1.win w).arr.view.loc (c.tc : Thread nD τ)))
    (h0 : G 0 = Vc (Pipeline.arrRef spec1 0)) (h1 : G 1 = Vc (Pipeline.arrRef spec1 0)) (h2 : G 2 = Vc (Pipeline.arrRef spec1 0))
    (h3 : G 3 = Vc (Pipeline.arrRef spec1 3)) :
    (Pipeline.arrBufs spec1 c Vc : sProp 𝕄) ⊣⊢ dat.arrays G := by
  unfold Pipeline.arrBufs Dat.arrays
  rw [show (bigSep (Finset.univ.image (Pipeline.arrRef spec1)) fun b => (((c.tc : Thread nD τ).loc b) ↦{fullShare} Vc b : sProp 𝕄))
      = iprop((((c.tc : Thread nD τ).loc main_v5) ↦{fullShare} Vc main_v5) ∗ (((c.tc : Thread nD τ).loc main_v6) ↦{fullShare} Vc main_v6))
      from bigSep_eq_bigSepL_of_eq [main_v5, main_v6] (by decide) (by decide) _, bigSep_W1]
  rw [h0, h1, h2, h3]
  rw [show dat.share 0 = fullShare.left from by unfold Dat.share; rw [if_neg (by decide)]; exact hq0,
    show dat.share 1 = fullShare.right.left from by unfold Dat.share; rw [if_neg (by decide)]; exact hq1,
    show dat.share 2 = fullShare.right.right from by unfold Dat.share; rw [if_neg (by decide)]; exact hq2,
    show dat.share 3 = fullShare from by unfold Dat.share; rw [if_pos (by decide)]]
  rw [(arr_whole1 0).set_eq_univ, (arr_whole1 3).set_eq_univ]
  refine ⟨?_, ?_⟩
  · iintro ⟨H5, H6⟩
    ihave H := (pointsTo_share (PosShare.mem_left_op_right fullShare)).1 $$ H5
    icases H with ⟨Hl, Hr⟩
    ihave H' := (pointsTo_share (PosShare.mem_left_op_right fullShare.right)).1 $$ Hr
    icases H' with ⟨Hrl, Hrr⟩
    isplitl [Hl]; · iexact Hl
    isplitl [Hrl]; · iexact Hrl
    isplitl [Hrr]; · iexact Hrr
    iexact H6
  · iintro ⟨Hl, Hrl, Hrr, H6⟩
    isplitr [H6]
    · iapply (pointsTo_share (PosShare.mem_left_op_right fullShare)).2
      isplitl [Hl]; · iexact Hl
      iapply (pointsTo_share (PosShare.mem_left_op_right fullShare.right)).2
      isplitl [Hrl]; · iexact Hrl
      iexact Hrr
    · iexact H6

/-- Entering region 1: the core's unscoped buffers at `Vc` are the region's arrays at the proof data's entry contents,
    the shared array split among its three readers, beside the buffers that are no array of the region. -/
theorem entry1 (c : Dev nD) (dat : Dat τ (Elt F) Unit ℕ (UR sig nD τ) ℕ cfg1 c)
    (hq0 : dat.q 0 = fullShare.left) (hq1 : dat.q 1 = fullShare.right.left) (hq2 : dat.q 2 = fullShare.right.right)
    (Vc : (b : Ref sig .tc) → Buf (Elt F) ((c : Thread nD τ).loc b))
    (hA : ∀ w, dat.A w = Vc (Pipeline.arrRef spec1 w)) :
    (unscopedBufs c Vc : sProp 𝕄) ⊢ iprop(dat.arrays (dat.arrAt · 0) ∗ Pipeline.unscopedRest spec1 c Vc) := by
  rw [Pipeline.unscopedBufs_split₀ cfgs (1 : Fin 3) (by decide) c Vc]
  exact sep_mono (arrays1_iff c dat hq0 hq1 hq2 Vc (dat.arrAt · 0) (hA 0) (hA 1) (hA 2) (hA 3)).1 .rfl

/-- Leaving region 1: the arrays at their final contents (the inputs' unchanged, so the three shares join) and the
    bypassing buffers at `Vc` are the unscoped buffers at any `Vc'` that has the arrays there and agrees with `Vc` elsewhere. -/
theorem exit1 (c : Dev nD) (dat : Dat τ (Elt F) Unit ℕ (UR sig nD τ) ℕ cfg1 c)
    (hq0 : dat.q 0 = fullShare.left) (hq1 : dat.q 1 = fullShare.right.left) (hq2 : dat.q 2 = fullShare.right.right)
    (Vc Vc' : (b : Ref sig .tc) → Buf (Elt F) ((c : Thread nD τ).loc b))
    (h0 : dat.arrAt 0 cfg1.N = Vc' (Pipeline.arrRef spec1 0)) (h1 : dat.arrAt 1 cfg1.N = Vc' (Pipeline.arrRef spec1 0))
    (h2 : dat.arrAt 2 cfg1.N = Vc' (Pipeline.arrRef spec1 0)) (h3 : dat.arrAt 3 cfg1.N = Vc' (Pipeline.arrRef spec1 3))
    (hrest : ∀ b, b ∉ Finset.univ.image (Pipeline.arrRef spec1) → Vc' b = Vc b) :
    iprop(dat.arrays (dat.arrAt · cfg1.N) ∗ Pipeline.unscopedRest spec1 c Vc) ⊢ (unscopedBufs c Vc' : sProp 𝕄) := by
  rw [Pipeline.unscopedBufs_split₀ cfgs (1 : Fin 3) (by decide) c Vc']
  refine sep_mono (arrays1_iff c dat hq0 hq1 hq2 Vc' (dat.arrAt · cfg1.N) h0 h1 h2 h3).2 (Entails.of_eq ?_)
  unfold Pipeline.unscopedRest
  exact bigSep_congr fun b hb => by rw [hrest b (Finset.mem_sdiff.mp hb).2]

end Cert.KernelIdeal.Hand

end
-- ==== Proof.KI.Run.lean ====
/-
  The whole run of @main: host operations, the three regions, host operations, as one list of segments.
  Between segments core `c` holds every unscoped buffer whole at contents that are named here as a fold
  from the launch memory: a host stretch applies its operations; a region leaves its inputs as it found
  them and its output array at what the pipeline's write-backs give.  The run ends with every unscoped
  buffer at the last of these contents, from which the frame (the arguments unchanged) is read, and from
  which a value proof reads the result array.
-/
import proofs.«423763_j74002286510487_3_alg».proof.Proof.KI.Body0
import proofs.«423763_j74002286510487_3_alg».proof.Proof.KI.Body1
import proofs.«423763_j74002286510487_3_alg».proof.Proof.KI.Body2
import proofs.«423763_j74002286510487_3_alg».proof.Proof.KI.Share1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its output array at what its write-backs leave. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1 (entered straight from region 0's exit): its output array `main_v6` at what its write-backs leave,
    every other buffer, the shared input array included, as entered. -/
def W3 (c : Dev nD) : Valuation τ sig (Elt F) :=
  Function.update (W2 m ρ c) (Proc.devRef .tc main_v6) ((dat1 (V2 m ρ) c).arrAt 3 cfg1.N)
theorem W3_out (c : Dev nD) : W3 m ρ c (Proc.devRef .tc main_v6) = (dat1 (V2 m ρ) c).arrAt 3 cfg1.N := by
  unfold W3; exact Function.update_self ..
theorem W3_of_ne (c : Dev nD) (b : Ref sig .tc) (hb : b ≠ main_v6) :
    W3 m ρ c (Proc.devRef .tc b) = W2 m ρ c (Proc.devRef .tc b) := by
  unfold W3; exact Function.update_of_ne (StableHlo.devRef_ne_of_ne hb) ..
abbrev V3 : (c : Dev nD) → (b : Ref sig .tc) → Buf (Elt F) ((c : Thread nD τ).loc b) := fun c b => W3 m ρ c b

/-- After the second host stretch (region 2's entry). -/
abbrev W4 : Dev nD → Valuation τ sig (Elt F) := fun c => StableHlo.after hostOps2 (W3 m ρ c)
abbrev V4 : (c : Dev nD) → (b : Ref sig .tc) → Buf (Elt F) ((c : Thread nD τ).loc b) := fun c b => W4 m ρ c b
/-- After region 2. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)
/-- After the last host stretch: the end. -/
abbrev W6 : Dev nD → Valuation τ sig (Elt F) := fun c => StableHlo.after hostOps3 (W5 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V4 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0, entered at `W1` and left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered at `W2` and left at `W3`: its three input windows share the array `main_v5`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := entry1 c (dat1 (V2 m ρ) c) (q1_0 (V2 m ρ) c) (q1_1 (V2 m ρ) c) (q1_2 (V2 m ρ) c) (V2 m ρ c) (fun w => A_eq1 (V2 m ρ) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hin : ∀ w : Fin cfg1.W, (cfg1.win w).isOut = false → (dat1 (V2 m ρ) c).arrAt w cfg1.N = V2 m ρ c (Pipeline.arrRef spec1 w) :=
      fun w hw => ((dat1 (V2 m ρ) c).arrAt_in w hw _).trans (A_eq1 (V2 m ρ) c w)
    have hjoin := exit1 c (dat1 (V2 m ρ) c) (q1_0 (V2 m ρ) c) (q1_1 (V2 m ρ) c) (q1_2 (V2 m ρ) c) (V2 m ρ c) (V3 m ρ c)
      ((hin 0 rfl).trans (W3_of_ne m ρ c main_v5 (by decide)).symm)
      ((hin 1 rfl).trans (W3_of_ne m ρ c main_v5 (by decide)).symm)
      ((hin 2 rfl).trans (W3_of_ne m ρ c main_v5 (by decide)).symm)
      (W3_out m ρ c).symm
      (fun b hb => W3_of_ne m ρ c b fun e => hb (Finset.mem_image.mpr ⟨3, Finset.mem_univ _, e.symm⟩))
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2, entered at `W4` and left at `W5`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)),
    .region (reg2 m ρ),
    .host (hseg hostOps3 hostOps3_sub hostOps3_fresh (W5 m ρ)) ]

theorem main_run (c : Dev nD) : main (F := F) c = Pipeline.Seg.run (segs m ρ) := (main_chain c).trans (by chain_rfl)

set_option backward.isDefEq.respectTransparency.types false in
/-- Every weakly fair execution of @main terminates, nothing faulting, with every unscoped buffer of every core at
    the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      show iprop(StableHlo.held (c : Thread nD τ) (Pipeline.ucRefs τ sig) (W6 m ρ c) ∗ R c) ⊢ _
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.KI.Frame.lean ====
/-
  The frame: no host stretch writes an argument array and no region may change one (an argument reaches a region
  only through an input window or bypasses it), so the contents at the last boundary, walked back through the
  fold, are the launch memory's at every argument.
-/
import proofs.«423763_j74002286510487_3_alg».proof.Proof.KI.Run
import proofs.«423763_j74002286510487_3_alg».proof.Proof.Gen.KernelIdeal.Regions

set_option maxRecDepth 16384

noncomputable section

namespace Cert.KernelIdeal.Hand

open Cert.KernelIdeal
open Cert.KernelIdeal.Gen (hostOps0 hostOps2 hostOps3 hostOps0_W hostOps2_W hostOps3_W hostOps0_writes hostOps2_writes hostOps3_writes)
open Idealize.ShloMosaic Idealize.ShloMosaic.TcCoe Idealize.SL.Sem

variable {F : FTy → Type} [FloatOps F]
variable (m : (ℓ : Loc nD τ sig) → Buf (Elt F) ℓ) (ρ : Dev nD → PrngReg)

/-- A buffer that no host stretch writes and that is no region's output ends as launched. -/
theorem W6_of (c : Dev nD) (a : Ref sig .tc) (h6 : a ∉ hostOps3_W) (h5 : ∀ w, Pipeline.arrRef spec2 w ≠ a) (h4 : a ∉ hostOps2_W)
    (h3 : a ≠ main_v6) (h2 : ∀ w, Pipeline.arrRef spec0 w ≠ a) (h1 : a ∉ hostOps0_W) :
    W6 m ρ c (Proc.devRef .tc a) = m ((c : Thread nD τ).loc a) :=
  (StableHlo.after_of_writes_sub hostOps3 _ hostOps3_writes h6).trans <|
    (W5_of_ne m ρ c a h5).trans <| (StableHlo.after_of_writes_sub hostOps2 _ hostOps2_writes h4).trans <|
    (W3_of_ne m ρ c a h3).trans <| (W2_of_ne m ρ c a h2).trans <|
    (StableHlo.after_of_writes_sub hostOps0 _ hostOps0_writes h1).trans rfl

theorem W6_arg0 (c : Dev nD) : W6 m ρ c (Proc.devRef .tc main_arg0) = m ((c : Thread nD τ).loc main_arg0) :=
  W6_of m ρ c main_arg0 (by decide) (by decide) (by decide) (by decide) (by decide) (by decide)
theorem W6_arg1 (c : Dev nD) : W6 m ρ c (Proc.devRef .tc main_arg1) = m ((c : Thread nD τ).loc main_arg1) :=
  W6_of m ρ c main_arg1 (by decide) (by decide) (by decide) (by decide) (by decide) (by decide)
theorem W6_arg2 (c : Dev nD) : W6 m ρ c (Proc.devRef .tc main_arg2) = m ((c : Thread nD τ).loc main_arg2) :=
  W6_of m ρ c main_arg2 (by decide) (by decide) (by decide) (by decide) (by decide) (by decide)
theorem W6_arg3 (c : Dev nD) : W6 m ρ c (Proc.devRef .tc main_arg3) = m ((c : Thread nD τ).loc main_arg3) :=
  W6_of m ρ c main_arg3 (by decide) (by decide) (by decide) (by decide) (by decide) (by decide)
theorem W6_arg4 (c : Dev nD) : W6 m ρ c (Proc.devRef .tc main_arg4) = m ((c : Thread nD τ).loc main_arg4) :=
  W6_of m ρ c main_arg4 (by decide) (by decide) (by decide) (by decide) (by decide) (by decide)

/-- The run with the result array and the five arguments read off the last boundary's contents. -/
theorem run_read : θ_run defs (onTc (τ := τ) (main (F := F))) ⟨m, fun _ => 0, ρ⟩ (fun r => ∀ c : Dev nD,
      r.2.mem ((c.tc : Thread nD τ).loc main_v9) = W6 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v9 (by decide)),
     (h c _ (mem_uc main_arg0 (by decide))).trans (W6_arg0 m ρ c),
     (h c _ (mem_uc main_arg1 (by decide))).trans (W6_arg1 m ρ c),
     (h c _ (mem_uc main_arg2 (by decide))).trans (W6_arg2 m ρ c),
     (h c _ (mem_uc main_arg3 (by decide))).trans (W6_arg3 m ρ c),
     (h c _ (mem_uc main_arg4 (by decide))).trans (W6_arg4 m ρ c)⟩) (run_all m ρ)

/-- The frame claim's statement at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => (h c).2) (run_read m ρ)

end Cert.KernelIdeal.Hand

end
-- ==== Proof.Spec.lean ====
/-
  The mathematics of the certificate, stated over plain finite index types and the extended reals.
  A linear layer is a row-by-row inner product plus a bias.  Multi-head attention is written twice:
  `attK` scales the query before the inner products and divides the weighted sum of the values by the
  sum of the exponentials; `attR` scales the scores after the inner products and divides each
  exponential by their sum before weighting the values.  On real (finite) inputs the two agree
  (`attK_eq_attR`): a positive finite scale moves through a finite sum, and division by a positive
  finite number distributes over a finite sum of reals.
-/
import Idealize.ShloMosaic.PureOps.Ideal
import Idealize.ShloMosaic.PureOps.Ideal.Laws

noncomputable section

namespace Cert.Spec

open Idealize.ShloMosaic

/-- The three float literals the two programs share, as the extended reals they denote. -/
def NEG : EReal := Ideal.ofBits .f32 0xFF800000#32
def C8 : EReal := Ideal.ofBits .f32 0x3E000000#32
def Z : EReal := Ideal.ofBits .f32 0x00000000#32

theorem NEG_eq : NEG = ⊥ := by simp [NEG, Ideal.ofBits, Ideal.ieee]
theorem C8_eq : C8 = ((1 / 8 : ℝ) : EReal) := by
  simp [C8, Ideal.ofBits, Ideal.ieee]
  rw [← EReal.coe_mul]
  congr 1
  norm_num
theorem Z_eq : Z = 0 := by simp [Z, Ideal.ofBits, Ideal.ieee]

/-- An extended real that is a real number. -/
def IsReal (x : EReal) : Prop := ∃ r : ℝ, x = (r : EReal)

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The running maximum from `⊥` over a nonempty finite family of reals is a real. -/
private theorem fold_max_coe {ι : Type} (s : Finset ι) (hs : s.Nonempty) (f : ι → ℝ) :
    ∃ r : ℝ, s.fold max (⊥ : EReal) (fun m => (f m : EReal)) = (r : EReal) := by
  induction hs using Finset.Nonempty.cons_induction with
  | singleton a => exact ⟨f a, by simp⟩
  | cons a s ha hs ih =>
    obtain ⟨r, hr⟩ := ih
    refine ⟨max (f a) r, ?_⟩
    rw [Finset.fold_cons, hr]
    exact (Monotone.map_max (f := fun x : ℝ => (x : EReal)) (fun _ _ h => EReal.coe_le_coe_iff.2 h)).symm

/-- One output element of a linear layer: an inner product plus a bias. -/
def lin {K : ℕ} (x : Fin K → EReal) (w : Fin K → EReal) (b : EReal) : EReal := (∑ k, x k * w k) + b

theorem lin_real {K : ℕ} (x w : Fin K → EReal) (b : EReal) (hx : ∀ k, IsReal (x k)) (hw : ∀ k, IsReal (w k)) (hb : IsReal b) :
    IsReal (lin x w b) := by
  choose xr hxr using hx
  choose wr hwr using hw
  obtain ⟨br, hbr⟩ := hb
  refine ⟨(∑ k, xr k * wr k) + br, ?_⟩
  unfold lin
  rw [EReal.coe_add, coe_sum, hbr]
  congr 1
  refine Finset.sum_congr rfl fun k _ => ?_
  rw [hxr, hwr, EReal.coe_mul]

/-- Attention of one query row against `M` keys and one value column, as the kernel computes it. -/
def attK {M D : ℕ} (q : Fin D → EReal) (k : Fin M → Fin D → EReal) (v : Fin M → EReal) : EReal :=
  let s : Fin M → EReal := fun m => ∑ d, (q d * C8) * k m d
  let mx : EReal := (Finset.univ : Finset (Fin M)).fold max NEG s
  let p : Fin M → EReal := fun m => Ideal.exp (s m - mx)
  Ideal.div (∑ m, p m * v m) (∑ m, p m)

/-- The same as the reference computes it. -/
def attR {M D : ℕ} (q : Fin D → EReal) (k : Fin M → Fin D → EReal) (v : Fin M → EReal) : EReal :=
  let s : Fin M → EReal := fun m => (∑ d, q d * k m d) * C8
  let mx : EReal := max NEG ((Finset.univ : Finset (Fin M)).fold max NEG s)
  let p : Fin M → EReal := fun m => Ideal.exp (s m - mx)
  ∑ m, Ideal.div (p m) (Z + ∑ m', p m') * v m

theorem attK_eq_attR {M D : ℕ} [NeZero M] (q : Fin D → EReal) (k : Fin M → Fin D → EReal) (v : Fin M → EReal)
    (hq : ∀ d, IsReal (q d)) (hk : ∀ m d, IsReal (k m d)) (hv : ∀ m, IsReal (v m)) :
    attK q k v = attR q k v := by
  choose qr hqr using hq
  choose kr hkr using hk
  choose vr hvr using hv
  haveI : Nonempty (Fin M) := ⟨0⟩
  -- both forms of the scores are the same real number: the scale moves through the finite sum
  have hs : ∀ m, (∑ d, (q d * C8) * k m d) = (((∑ d, qr d * kr m d) * (1 / 8) : ℝ) : EReal) := by
    intro m
    rw [Finset.sum_mul, coe_sum]
    refine Finset.sum_congr rfl fun d _ => ?_
    rw [hqr, hkr, C8_eq, ← EReal.coe_mul, ← EReal.coe_mul]
    congr 1
    ring
  have hs' : ∀ m, (∑ d, q d * k m d) * C8 = (((∑ d, qr d * kr m d) * (1 / 8) : ℝ) : EReal) := by
    intro m
    rw [EReal.coe_mul, coe_sum, C8_eq]
    congr 1
    refine Finset.sum_congr rfl fun d _ => ?_
    rw [hqr, hkr, EReal.coe_mul]
  -- the row maximum is a real, so every exponential is a positive real
  obtain ⟨mx, hmx⟩ := fold_max_coe (Finset.univ : Finset (Fin M)) Finset.univ_nonempty
    (fun m => (∑ d, qr d * kr m d) * (1 / 8))
  simp only [attK, attR, hs, hs', NEG_eq, Z_eq, zero_add, hmx, max_bot_left, ← EReal.coe_sub,
    Ideal.exp_coe, hvr, ← EReal.coe_mul, ← coe_sum]
  have hpos : 0 < ∑ m : Fin M, Real.exp ((∑ d, qr d * kr m d) * (1 / 8) - mx) :=
    Finset.sum_pos (fun m _ => Real.exp_pos _) Finset.univ_nonempty
  -- division by the positive real denominator is multiplication by its reciprocal, which
  -- distributes over the finite sum
  rw [Ideal.div_coe (ne_of_gt hpos)]
  simp only [Ideal.div_coe (ne_of_gt hpos), ← EReal.coe_mul, ← coe_sum]
  congr 1
  rw [Finset.sum_mul]
  refine Finset.sum_congr rfl fun m _ => ?_
  ring

/-! ## The flat layout: rows are (batch, position), columns are (section, head, depth) -/

def row (b : Fin 2) (n : Fin 2048) : Fin 4096 := ⟨b.val * 2048 + n.val, by omega⟩
def col (s : Fin 3) (h : Fin 16) (d : Fin 64) : Fin 3072 := ⟨s.val * 1024 + h.val * 64 + d.val, by omega⟩
def hcol (h : Fin 16) (d : Fin 64) : Fin 1024 := ⟨h.val * 64 + d.val, by omega⟩
def bOf (r : Fin 4096) : Fin 2 := ⟨r.val / 2048, by omega⟩
def nOf (r : Fin 4096) : Fin 2048 := ⟨r.val % 2048, by omega⟩
def hOf (j : Fin 1024) : Fin 16 := ⟨j.val / 64, by omega⟩
def dOf (j : Fin 1024) : Fin 64 := ⟨j.val % 64, by omega⟩

/-- The projection to queries, keys and values. -/
def qkv (x : Fin 4096 → Fin 1024 → EReal) (wq : Fin 3072 → Fin 1024 → EReal) (bq : Fin 3072 → EReal) :
    Fin 4096 → Fin 3072 → EReal := fun r o => lin (x r) (wq o) (bq o)

/-- Attention over the flat query/key/value array `Q`, in the kernel's arrangement and in the reference's. -/
def attnK (Q : Fin 4096 → Fin 3072 → EReal) (r : Fin 4096) (j : Fin 1024) : EReal :=
  attK (fun d' => Q r (col 0 (hOf j) d')) (fun m d' => Q (row (bOf r) m) (col 1 (hOf j) d'))
    (fun m => Q (row (bOf r) m) (col 2 (hOf j) (dOf j)))
def attnR (Q : Fin 4096 → Fin 3072 → EReal) (r : Fin 4096) (j : Fin 1024) : EReal :=
  attR (fun d' => Q r (col 0 (hOf j) d')) (fun m d' => Q (row (bOf r) m) (col 1 (hOf j) d'))
    (fun m => Q (row (bOf r) m) (col 2 (hOf j) (dOf j)))

/-- The whole forward pass, either way. -/
def fwdK (x : Fin 4096 → Fin 1024 → EReal) (wq : Fin 3072 → Fin 1024 → EReal) (bq : Fin 3072 → EReal)
    (wp : Fin 1024 → Fin 1024 → EReal) (bp : Fin 1024 → EReal) : Fin 4096 → Fin 1024 → EReal :=
  fun r o => lin (attnK (qkv x wq bq) r) (wp o) (bp o)
def fwdR (x : Fin 4096 → Fin 1024 → EReal) (wq : Fin 3072 → Fin 1024 → EReal) (bq : Fin 3072 → EReal)
    (wp : Fin 1024 → Fin 1024 → EReal) (bp : Fin 1024 → EReal) : Fin 4096 → Fin 1024 → EReal :=
  fun r o => lin (attnR (qkv x wq bq) r) (wp o) (bp o)

theorem fwdK_eq_fwdR (x : Fin 4096 → Fin 1024 → EReal) (wq : Fin 3072 → Fin 1024 → EReal) (bq : Fin 3072 → EReal)
    (wp : Fin 1024 → Fin 1024 → EReal) (bp : Fin 1024 → EReal)
    (hx : ∀ r c, IsReal (x r c)) (hwq : ∀ o c, IsReal (wq o c)) (hbq : ∀ o, IsReal (bq o)) :
    fwdK x wq bq wp bp = fwdR x wq bq wp bp := by
  funext r o
  unfold fwdK fwdR
  congr 1
  funext j
  have hQ : ∀ r' o', IsReal (qkv x wq bq r' o') := fun r' o' => lin_real _ _ _ (hx r') (hwq o') (hbq o')
  exact attK_eq_attR _ _ _ (fun _ => hQ _ _) (fun _ _ => hQ _ _) (fun _ => hQ _ _)

end Cert.Spec

end
-- ==== Proof.KI.Val0.lean ====
/-
  Region 0: the array the row-tiled linear layer leaves, index by index: each output element is the inner
  product of a row of the input with a row of the weight, plus the bias at that column.
-/
import proofs.«423763_j74002286510487_3_alg».proof.Proof.KI.Body0
import proofs.«423763_j74002286510487_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx (ix2)

/-! ## The matrix product at an index -/

theorem lhs_dot0_0 (i : S512x3072.Idx) (q : dot_S512x1024_S3072x1024_S512x3072_1_1_0_0_n_n.contr.Idx) :
    (dot_S512x1024_S3072x1024_S512x3072_1_1_0_0_n_n.lhsIdx i q 0).val = (i 0).val := by
  unfold DotDims.lhsIdx
  rw [dif_neg (show ¬(0 : Fin S512x1024.rank) ∈ dot_S512x1024_S3072x1024_S512x3072_1_1_0_0_n_n.lhsBatch by decide), dif_pos (show (0 : Fin S512x1024.rank) ∈ dot_S512x1024_S3072x1024_S512x3072_1_1_0_0_n_n.lhsNonContracting by decide)]
  rfl
theorem lhs_dot0_1 (i : S512x3072.Idx) (q : dot_S512x1024_S3072x1024_S512x3072_1_1_0_0_n_n.contr.Idx) :
    (dot_S512x1024_S3072x1024_S512x3072_1_1_0_0_n_n.lhsIdx i q 1).val = (q ⟨0, by decide⟩).val :=
  dot_S512x1024_S3072x1024_S512x3072_1_1_0_0_n_n.lhsIdx_val_of_single rfl i q
theorem rhs_dot0_0 (i : S512x3072.Idx) (q : dot_S512x1024_S3072x1024_S512x3072_1_1_0_0_n_n.contr.Idx) :
    (dot_S512x1024_S3072x1024_S512x3072_1_1_0_0_n_n.rhsIdx i q 0).val = (i 1).val := by
  unfold DotDims.rhsIdx
  rw [dif_neg (show ¬(0 : Fin S3072x1024.rank) ∈ dot_S512x1024_S3072x1024_S512x3072_1_1_0_0_n_n.rhsBatch by decide), dif_pos (show (0 : Fin S3072x1024.rank) ∈ dot_S512x1024_S3072x1024_S512x3072_1_1_0_0_n_n.rhsNonContracting by decide)]
  rfl
theorem rhs_dot0_1 (i : S512x3072.Idx) (q : dot_S512x1024_S3072x1024_S512x3072_1_1_0_0_n_n.contr.Idx) :
    (dot_S512x1024_S3072x1024_S512x3072_1_1_0_0_n_n.rhsIdx i q 1).val = (q ⟨0, by decide⟩).val :=
  dot_S512x1024_S3072x1024_S512x3072_1_1_0_0_n_n.rhsIdx_val_of_single rfl i q

/-- The product of a block of rows with the transposed weight, into the zero accumulator, at row `p` and column `q`:
    the inner product of row `p` of the block with row `q` of the weight. -/
theorem dot0_apply (x0 : FVec Ideal S512x1024 .bf16) (x1 : FVec Ideal S3072x1024 .bf16) (p : Fin 512) (q : Fin 3072) :
    matmul (F := Ideal) dot_S512x1024_S3072x1024_S512x3072_1_1_0_0_n_n none x0 x1 (constant (F := Ideal) S512x3072 .f32 0x00000000#32) (ix2 p q)
      = ∑ k : Fin 1024, x0 (ix2 p k) * x1 (ix2 q k) := by
  show FloatOps.matmul _ _ _ _ _ _ = _
  rw [Ideal.matmul_constant_zero_apply, ← Equiv.sum_comp (ValueIdx.contrEquiv1 dot_S512x1024_S3072x1024_S512x3072_1_1_0_0_n_n 1024 rfl rfl).symm]
  refine Finset.sum_congr rfl fun k _ => ?_
  have hk := ValueIdx.contrEquiv1_symm_val dot_S512x1024_S3072x1024_S512x3072_1_1_0_0_n_n 1024 rfl rfl k
  have el : dot_S512x1024_S3072x1024_S512x3072_1_1_0_0_n_n.lhsIdx (ix2 p q) ((ValueIdx.contrEquiv1 dot_S512x1024_S3072x1024_S512x3072_1_1_0_0_n_n 1024 rfl rfl).symm k) = ix2 p k := funext fun a => Fin.ext (by
    match a with
    | ⟨0, _⟩ => exact lhs_dot0_0 _ _
    | ⟨1, _⟩ => exact (lhs_dot0_1 _ _).trans hk)
  have er : dot_S512x1024_S3072x1024_S512x3072_1_1_0_0_n_n.rhsIdx (ix2 p q) ((ValueIdx.contrEquiv1 dot_S512x1024_S3072x1024_S512x3072_1_1_0_0_n_n 1024 rfl rfl).symm k) = ix2 q k := funext fun a => Fin.ext (by
    match a with
    | ⟨0, _⟩ => exact rhs_dot0_0 _ _
    | ⟨1, _⟩ => exact (rhs_dot0_1 _ _).trans hk)
  rw [el, er]

/-- The body's payload at row `p` and column `q` of its block: the inner product plus the bias at column `q`. -/
theorem pay0_apply (x0 : Vec Ideal S512x1024 .bf16) (x1 : Vec Ideal S3072x1024 .bf16) (x2 : Vec Ideal S1x3072 .f32) (p : Fin 512) (q : Fin 3072) :
    (k0_pay1 (F := Ideal) x0 x1 x2 : S512x3072.Idx → EReal) (ix2 p q)
      = (∑ k : Fin 1024, (x0 : S512x1024.Idx → EReal) (ix2 p k) * (x1 : S3072x1024.Idx → EReal) (ix2 q k)) + (x2 : S1x3072.Idx → EReal) (ix2 0 q) := by
  unfold k0_pay1
  simp only [shapeCast_self]
  rw [ValueIdx.truncf_apply, ValueIdx.addf_apply, dot0_apply, ValueIdx.broadcastTo_1b_ab_apply]

theorem pay0_at (x0 : Vec Ideal S512x1024 .bf16) (x1 : Vec Ideal S3072x1024 .bf16) (x2 : Vec Ideal S1x3072 .f32) (j : S512x3072.Idx) :
    (k0_pay1 (F := Ideal) x0 x1 x2 : S512x3072.Idx → EReal) j
      = (∑ k : Fin 1024, (x0 : S512x1024.Idx → EReal) (ix2 (j 0) k) * (x1 : S3072x1024.Idx → EReal) (ix2 (j 1) k)) + (x2 : S1x3072.Idx → EReal) (ix2 0 (j 1)) :=
  (congrArg (k0_pay1 (F := Ideal) x0 x1 x2 : S512x3072.Idx → EReal) (ValueIdx.eq_ix2 j)).trans (pay0_apply x0 x1 x2 (j 0) (j 1))

/-! ## The output block after the body -/

theorem zero_off0 : (![0, 0] : Fin 2 → Nat) = fun _ => 0 := funext fun a => by fin_cases a <;> rfl

/-- One whole-block store of the payload of three whole-block loads: the block holds the payload of the blocks. -/
theorem out0_eq (x0 : Vec Ideal S512x1024 .bf16) (x1 : Vec Ideal S3072x1024 .bf16) (x2 : Vec Ideal S1x3072 .f32) :
    out0 (F := Ideal) x0 x1 x2 = k0_pay1 (F := Ideal) x0 x1 x2 := by
  unfold out0
  rw [View.canon_unit_zero zero_off0]
  simp only [View.ld_unit_zero (S := S512x1024) zero_off0, View.ld_unit_zero (S := S3072x1024) zero_off0, View.ld_unit_zero (S := S1x3072) zero_off0]

/-! ## The input blocks as parts of their arrays -/

variable (V : (c : Dev nD) → (b : Ref sig .tc) → Buf (Elt Ideal) ((c : Thread nD τ).loc b))

/-- The block indices over the grid: the input rows and the output rows move with the point, the weight and the
    bias stay at their one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point `t` is rows `512 t …` of the input array. -/
theorem iblk0_0_apply (c : Dev nD) (t : Fin cfg0.N) (x : S512x1024.Idx) (i : S4096x1024.Idx)
    (h0 : (i 0).val = 512 * t.val + (x 0).val) (h1 : (i 1).val = (x 1).val) :
    (iblk0 V c 0 t : S512x1024.Idx → EReal) x = (V c main_v1 : S4096x1024.Idx → EReal) i := by
  obtain ⟨e0, e1, -⟩ := idx_facts0 t
  unfold iblk0
  rw [View.read_apply]
  show (V c main_v1 : S4096x1024.Idx → EReal) _ = _
  congr 1
  funext a
  apply Fin.ext
  match a with
  | ⟨0, _⟩ => show win0_0.index t (0 : Fin 2) * 512 + 1 * (x 0).val = (i 0).val; rw [e0, h0]; omega
  | ⟨1, _⟩ => show win0_0.index t (1 : Fin 2) * 1024 + 1 * (x 1).val = (i 1).val; rw [e1, h1]; omega

/-- The weight's block is the whole weight at every point. -/
theorem iblk0_1_apply (c : Dev nD) (t : Fin cfg0.N) (x : S3072x1024.Idx) :
    (iblk0 V c 1 t : S3072x1024.Idx → EReal) x = (V c main_v2 : S3072x1024.Idx → EReal) x := by
  obtain ⟨-, -, e0, e1, -⟩ := idx_facts0 t
  unfold iblk0
  rw [View.read_apply]
  show (V c main_v2 : S3072x1024.Idx → EReal) _ = _
  congr 1
  funext a
  apply Fin.ext
  match a with
  | ⟨0, _⟩ => show win0_1.index t (0 : Fin 2) * 3072 + 1 * (x 0).val = (x 0).val; rw [e0]; omega
  | ⟨1, _⟩ => show win0_1.index t (1 : Fin 2) * 1024 + 1 * (x 1).val = (x 1).val; rw [e1]; omega

/-- The bias's block is the whole bias at every point. -/
theorem iblk0_2_apply (c : Dev nD) (t : Fin cfg0.N) (x : S1x3072.Idx) :
    (iblk0 V c 2 t : S1x3072.Idx → EReal) x = (V c main_v4 : S1x3072.Idx → EReal) x := by
  obtain ⟨-, -, -, -, e0, e1, -⟩ := idx_facts0 t
  unfold iblk0
  rw [View.read_apply]
  show (V c main_v4 : S1x3072.Idx → EReal) _ = _
  congr 1
  funext a
  apply Fin.ext
  match a with
  | ⟨0, _⟩ => show win0_2.index t (0 : Fin 2) * 1 + 1 * (x 0).val = (x 0).val; rw [e0]; omega
  | ⟨1, _⟩ => show win0_2.index t (1 : Fin 2) * 3072 + 1 * (x 1).val = (x 1).val; rw [e1]; omega

/-! ## From the blocks to the array -/

/-- The whole output array: at row `r` and column `o`, the inner product of row `r` of the input with row `o` of the
    weight, plus the bias at `o`. -/
def lin0 (c : Dev nD) : S4096x3072.Idx → EReal := fun i =>
  Cert.Spec.lin (fun k : Fin 1024 => (V c main_v1 : S4096x1024.Idx → EReal) (ix2 (i 0) k))
    (fun k : Fin 1024 => (V c main_v2 : S3072x1024.Idx → EReal) (ix2 (i 1) k))
    ((V c main_v4 : S1x3072.Idx → EReal) (ix2 0 (i 1)))

/-- What point `t` writes back is block `t` of that array. -/
theorem flushed0_eq (c : Dev nD) (t : Fin cfg0.N) :
    (dat0 (F := Ideal) V c).flushed 3 t = ((cfg0.win 3).blk t).view.read (Elt Ideal) (lin0 V c) := by
  show (cfg0.win 3).cut (grid0.coords t) ((dat0 (F := Ideal) V c).after 3 t) = _
  rw [after0_3, out0_eq]
  obtain ⟨-, -, -, -, -, -, e0, e1⟩ := idx_facts0 t
  funext j
  show (k0_pay1 (F := Ideal) (iblk0 V c 0 t) (iblk0 V c 1 t) (iblk0 V c 2 t) : S512x3072.Idx → EReal) (fun a => ⟨(j a).val, _⟩)
    = lin0 V c (((cfg0.win 3).blk t).view.emb j)
  rw [pay0_at]
  unfold lin0 Cert.Spec.lin
  have hr : ((((cfg0.win 3).blk t).view.emb j) 0).val = 512 * t.val + (j 0).val := by
    show win0_3.index t (0 : Fin 2) * 512 + 1 * (j 0).val = _; rw [e0]; omega
  have hc : ((((cfg0.win 3).blk t).view.emb j) 1).val = (j 1).val := by
    show win0_3.index t (1 : Fin 2) * 3072 + 1 * (j 1).val = _; rw [e1]; omega
  congr 1
  · refine Finset.sum_congr rfl fun k _ => ?_
    congr 1
    · exact iblk0_0_apply V c t _ _ hr rfl
    · rw [iblk0_1_apply]
      exact congrArg _ (funext fun a => Fin.ext (by
        match a with
        | ⟨0, _⟩ => exact hc.symm
        | ⟨1, _⟩ => rfl))
  · rw [iblk0_2_apply]
    exact congrArg _ (funext fun a => Fin.ext (by
      match a with
      | ⟨0, _⟩ => rfl
      | ⟨1, _⟩ => exact hc.symm))

/-- An index of the array is in point `t`'s block iff each coordinate is in the block's range on its axis. -/
theorem mem_blk0 (t : Fin cfg0.N) (i : S4096x3072.Idx) :
    i ∈ ((cfg0.win 3).blk t).view.set ↔ ∀ a : Fin 2, win0_3.index t a * S512x3072.size a ≤ (i a).val ∧ (i a).val < win0_3.index t a * S512x3072.size a + S512x3072.size a := by
  show i ∈ ((View.whole main_v5).slice (win0_3.rect t)).set ↔ _
  rw [View.set_slice_whole, Rect.mem_set_unit]
  exact Iff.rfl

/-- Row `r` lies in the block of point `r / 512`. -/
theorem rows_cover0 (i : S4096x3072.Idx) : ∃ t : Fin cfg0.N, (cfg0.win 3).flush t = true ∧ i ∈ ((cfg0.win 3).blk t).view.set := by
  have hi0 : (i 0).val < 4096 := (i 0).isLt
  have hi1 : (i 1).val < 3072 := (i 1).isLt
  have hN : cfg0.N = 8 := N_0
  refine ⟨⟨(i 0).val / 512, by rw [hN]; omega⟩, flush0_3 _, ?_⟩
  rw [mem_blk0]
  obtain ⟨-, -, -, -, -, -, e0, e1⟩ := idx_facts0 ⟨(i 0).val / 512, by rw [hN]; omega⟩
  intro a
  match a with
  | ⟨0, _⟩ =>
    show win0_3.index _ (0 : Fin 2) * 512 ≤ (i 0).val ∧ (i 0).val < win0_3.index _ (0 : Fin 2) * 512 + 512
    rw [e0]; show (i 0).val / 512 * 512 ≤ (i 0).val ∧ (i 0).val < (i 0).val / 512 * 512 + 512; omega
  | ⟨1, _⟩ =>
    show win0_3.index _ (1 : Fin 2) * 3072 ≤ (i 1).val ∧ (i 1).val < win0_3.index _ (1 : Fin 2) * 3072 + 3072
    rw [e1]; omega

/-- The array after the region. -/
theorem arr0_eq (c : Dev nD) : (dat0 (F := Ideal) V c).arrAt 3 cfg0.N = lin0 V c :=
  (dat0 (F := Ideal) V c).arrAt_eq_of_cover 3 (lin0 V c) (fun t _ => flushed0_eq V c t) (rows_cover0)

theorem arr0_apply (c : Dev nD) (r : Fin 4096) (o : Fin 3072) :
    ((dat0 (F := Ideal) V c).arrAt 3 cfg0.N : S4096x3072.Idx → EReal) (ix2 r o)
      = Cert.Spec.lin (fun k : Fin 1024 => (V c main_v1 : S4096x1024.Idx → EReal) (ix2 r k))
          (fun k : Fin 1024 => (V c main_v2 : S3072x1024.Idx → EReal) (ix2 o k))
          ((V c main_v4 : S1x3072.Idx → EReal) (ix2 0 o)) := by
  rw [arr0_eq]
  rfl

end Cert.KernelIdeal.Hand

end
-- ==== Proof.KI.Pay1.lean ====
/-
  The attention body's stored value, read at an index of its [512, 128] output block.  The block holds a pair of
  heads side by side (64 columns each).  For each head the body scales the query by 1/8, takes the inner products
  with the 2048 keys, subtracts the row maximum, exponentiates, and divides the weighted sum of the values by the
  sum of the exponentials.  Both heads are the same function of their own 64 columns of the three blocks; the
  block is their concatenation along the columns.
-/
import proofs.«423763_j74002286510487_3_alg».proof.Proof.Gen.KernelIdeal.Skeleton
import proofs.«423763_j74002286510487_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx Idealize.SL.Sem

/-! ## The two products read at an index -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Query rows times key rows: the score of query row `y` against key `m` is the inner product over the 64 depth columns. -/
theorem scores_apply (q : FVec Ideal S512x64 .bf16) (k : FVec Ideal S2048x64 .bf16) (y : Fin 512) (m : Fin 2048) :
    matmul dot_S512x64_S2048x64_S512x2048_1_1_0_0_n_n none q k (constant (F := Ideal) S512x2048 .f32 0x00000000#32) (ix2 y m)
      = ∑ d : Fin 64, q (ix2 y d) * k (ix2 m d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hd := ValueIdx.contrEquiv1_symm_val dot_S512x64_S2048x64_S512x2048_1_1_0_0_n_n 64 rfl rfl d
  have el : dot_S512x64_S2048x64_S512x2048_1_1_0_0_n_n.lhsIdx (ix2 y m) ((ValueIdx.contrEquiv1 dot_S512x64_S2048x64_S512x2048_1_1_0_0_n_n 64 rfl rfl).symm d) = ix2 y d := funext fun a => Fin.ext (by
    match a with
    | ⟨0, _⟩ => exact lhs_qk_0 _ _
    | ⟨1, _⟩ => exact (lhs_qk_1 _ _).trans hd)
  have er : dot_S512x64_S2048x64_S512x2048_1_1_0_0_n_n.rhsIdx (ix2 y m) ((ValueIdx.contrEquiv1 dot_S512x64_S2048x64_S512x2048_1_1_0_0_n_n 64 rfl rfl).symm d) = ix2 m d := funext fun a => Fin.ext (by
    match a with
    | ⟨0, _⟩ => exact rhs_qk_0 _ _
    | ⟨1, _⟩ => exact (rhs_qk_1 _ _).trans hd)
  rw [el, er]

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Weights times values: entry `(y, d)` is the sum over the 2048 keys of the weight times the value's column `d`. -/
theorem weighted_apply (p : FVec Ideal S512x2048 .bf16) (v : FVec Ideal S2048x64 .bf16) (y : Fin 512) (d : Fin 64) :
    matmul dot_S512x2048_S2048x64_S512x64_1_0_0_1_n_n none p v (constant (F := Ideal) S512x64 .f32 0x00000000#32) (ix2 y d)
      = ∑ m : Fin 2048, p (ix2 y m) * v (ix2 m d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun m _ => ?_
  have hm := ValueIdx.contrEquiv1_symm_val dot_S512x2048_S2048x64_S512x64_1_0_0_1_n_n 2048 rfl rfl m
  have el : dot_S512x2048_S2048x64_S512x64_1_0_0_1_n_n.lhsIdx (ix2 y d) ((ValueIdx.contrEquiv1 dot_S512x2048_S2048x64_S512x64_1_0_0_1_n_n 2048 rfl rfl).symm m) = ix2 y m := funext fun a => Fin.ext (by
    match a with
    | ⟨0, _⟩ => exact lhs_pv_0 _ _
    | ⟨1, _⟩ => exact (lhs_pv_1 _ _).trans hm)
  have er : dot_S512x2048_S2048x64_S512x64_1_0_0_1_n_n.rhsIdx (ix2 y d) ((ValueIdx.contrEquiv1 dot_S512x2048_S2048x64_S512x64_1_0_0_1_n_n 2048 rfl rfl).symm m) = ix2 m d := funext fun a => Fin.ext (by
    match a with
    | ⟨0, _⟩ => exact (rhs_pv_0 _ _).trans hm
    | ⟨1, _⟩ => exact rhs_pv_1 _ _)
  rw [el, er]

/-! ## Row reductions and the column they are kept in -/

/-- The maximum of row `y`, taken from minus infinity over its 2048 entries. -/
theorem blockRowMax_apply (s : FVec Ideal S512x2048 .f32) (y : Fin 512) :
    multiReduction .maximumf [1] S512 s 0xFF800000#32 reduces_S512x2048_S512 (.inl rfl) rfl (ix1 y)
      = (Finset.univ : Finset (Fin 2048)).fold max Cert.Spec.NEG (fun m => s (ix2 y m)) := by
  refine (Ideal.multiReduction_maximumf_single s 0xFF800000#32 reduces_S512x2048_S512 (.inl rfl) rfl (ix1 y)).trans ?_
  show (Finset.univ : Finset (Fin 2048)).fold max Cert.Spec.NEG (fun m => s (reduces_S512x2048_S512.lift (ix1 y) m)) = _
  refine congrArg (fun f : Fin 2048 → EReal => (Finset.univ : Finset (Fin 2048)).fold max Cert.Spec.NEG f) (funext fun m => congrArg s (funext fun a => Fin.ext ?_))
  match a with
  | ⟨0, _⟩ => rfl
  | ⟨1, _⟩ => rfl

/-- The sum of row `y` over its 2048 entries. -/
theorem blockRowSum_apply (s : FVec Ideal S512x2048 .f32) (y : Fin 512) :
    multiReduction .add [1] S512 s 0x00000000#32 reduces_S512x2048_S512 (.inl rfl) rfl (ix1 y)
      = ∑ m : Fin 2048, s (ix2 y m) := by
  refine (Ideal.multiReduction_add_single s 0x00000000#32 reduces_S512x2048_S512 (.inl rfl) rfl (ix1 y)).trans ?_
  show ∑ m : Fin 2048, s (reduces_S512x2048_S512.lift (ix1 y) m) = _
  refine Finset.sum_congr rfl fun m _ => congrArg s (funext fun a => Fin.ext ?_)
  match a with
  | ⟨0, _⟩ => rfl
  | ⟨1, _⟩ => rfl

/-- A vector of 512 row values kept as a [512, 1] column reads, at `(y, u)`, the value of row `y`. -/
theorem keepcol_apply {α : Type} (v : S512.Idx → α) (y : Fin 512) (u : Fin 1) :
    shapeCast S512x1 v shapeCasts_S512_S512x1 (ix2 y u) = v (ix1 y) :=
  shapeCast_apply v shapeCasts_S512_S512x1 _ _ (by
    have hu : u.val = 0 := by omega
    rw [Shape.rowMajor_val_two, Shape.rowMajor_val_one]
    show y.val = y.val * 1 + u.val
    rw [hu, Nat.mul_one, Nat.add_zero])

/-- A [512, 1] column spread over `n` columns reads, at `(y, j)`, the column's entry of row `y`. -/
theorem spreadcol_apply {α : Type} {n : ℕ} (v : S512x1.Idx → α) (h : S512x1.Broadcasts ⟨2, ![512, n]⟩) (y : Fin 512) (j : Fin n) :
    broadcastTo ⟨2, ![512, n]⟩ v h (ix2 y j) = v (ix2 y (0 : Fin 1)) := by
  refine broadcastTo_apply v h (ix2 y j) (ix2 y (0 : Fin 1)) fun ax => ?_
  match ax with
  | ⟨0, _⟩ =>
    show y.val = if (512 : ℕ) = 1 then 0 else y.val
    rw [if_neg (by decide)]
  | ⟨1, _⟩ => rfl

/-! ## One head -/

/-- The scores of one head: the query scaled by 1/8, against every key. -/
def scaledScores (q : FVec Ideal S512x64 .bf16) (k : FVec Ideal S2048x64 .bf16) : FVec Ideal S512x2048 .f32 :=
  matmul dot_S512x64_S2048x64_S512x2048_1_1_0_0_n_n none
    (truncf .bf16 (mulf (extf .f32 q bitsLt_bf16_f32) (broadcast S512x64 (Scalar.ofBits .f32 0x3E000000#32))) bitsLt_bf16_f32) k
    (constant S512x2048 .f32 0x00000000#32)

/-- The exponentials of one head: each score less its row's maximum, exponentiated. -/
def expScores (q : FVec Ideal S512x64 .bf16) (k : FVec Ideal S2048x64 .bf16) : FVec Ideal S512x2048 .f32 :=
  exp (subf (scaledScores q k) (broadcastTo S512x2048 (shapeCast S512x1
    (multiReduction .maximumf [1] S512 (scaledScores q k) 0xFF800000#32 reduces_S512x2048_S512 (.inl rfl) rfl)
    shapeCasts_S512_S512x1) broadcasts_S512x1_S512x2048))

/-- One head's output: the exponentials times the values, each row divided by the sum of its exponentials. -/
def headOut (q : FVec Ideal S512x64 .bf16) (k v : FVec Ideal S2048x64 .bf16) : FVec Ideal S512x64 .bf16 :=
  truncf .bf16 (divf
    (matmul dot_S512x2048_S2048x64_S512x64_1_0_0_1_n_n none (truncf .bf16 (expScores q k) bitsLt_bf16_f32) v (constant S512x64 .f32 0x00000000#32))
    (broadcastTo S512x64 (shapeCast S512x1
      (multiReduction .add [1] S512 (expScores q k) 0x00000000#32 reduces_S512x2048_S512 (.inl rfl) rfl)
      shapeCasts_S512_S512x1) broadcasts_S512x1_S512x64)) bitsLt_bf16_f32

theorem scaledScores_apply (q : FVec Ideal S512x64 .bf16) (k : FVec Ideal S2048x64 .bf16) (y : Fin 512) (m : Fin 2048) :
    scaledScores q k (ix2 y m) = ∑ d : Fin 64, (q (ix2 y d) * Cert.Spec.C8) * k (ix2 m d) := by
  unfold scaledScores
  rw [scores_apply]
  rfl

theorem expScores_apply (q : FVec Ideal S512x64 .bf16) (k : FVec Ideal S2048x64 .bf16) (y : Fin 512) (m : Fin 2048) :
    expScores q k (ix2 y m)
      = Ideal.exp (scaledScores q k (ix2 y m) - (Finset.univ : Finset (Fin 2048)).fold max Cert.Spec.NEG (fun m' => scaledScores q k (ix2 y m'))) := by
  unfold expScores
  show Ideal.exp (scaledScores q k (ix2 y m) - broadcastTo S512x2048 _ broadcasts_S512x1_S512x2048 (ix2 y m)) = _
  rw [spreadcol_apply, keepcol_apply, blockRowMax_apply]

/-- One head at an index is the attention of its query row against the keys and one value column. -/
theorem headOut_apply (q : FVec Ideal S512x64 .bf16) (k v : FVec Ideal S2048x64 .bf16) (y : Fin 512) (d : Fin 64) :
    headOut q k v (ix2 y d)
      = Cert.Spec.attK (fun d' => q (ix2 y d')) (fun m d' => k (ix2 m d')) (fun m => v (ix2 m d)) := by
  unfold headOut
  show Ideal.div (matmul dot_S512x2048_S2048x64_S512x64_1_0_0_1_n_n none (truncf .bf16 (expScores q k) bitsLt_bf16_f32) v (constant S512x64 .f32 0x00000000#32) (ix2 y d))
    (broadcastTo S512x64 _ broadcasts_S512x1_S512x64 (ix2 y d)) = _
  rw [weighted_apply, spreadcol_apply, keepcol_apply, blockRowSum_apply]
  unfold Cert.Spec.attK
  simp only [truncf_apply, expScores_apply, scaledScores_apply]

/-! ## The stored block: the two heads side by side -/

/-- Column `d'` of the head that column `y1` of the pair belongs to. -/
def pairCol (y1 : Fin 128) (d' : Fin 64) : Fin 128 :=
  ⟨(y1.val / 64) * 64 + d'.val, by have := y1.isLt; have := d'.isLt; omega⟩

/-- The head over the 64 columns from `o` of the three blocks, read at the column `y1 = o + d` of the pair. -/
theorem headOut_slices_apply (o : ℕ) (hqs : S512x128.Slices ![0, o] S512x64) (hks : S2048x128.Slices ![0, o] S2048x64)
    (a : Vec Ideal S512x128 .bf16) (b c : Vec Ideal S2048x128 .bf16) (y0 : Fin 512) (y1 : Fin 128) (d : Fin 64)
    (ho : (y1.val / 64) * 64 = o) (hd : y1.val = o + d.val) :
    headOut (extractStridedSlice S512x64 ![0, o] a hqs) (extractStridedSlice S2048x64 ![0, o] b hks)
        (extractStridedSlice S2048x64 ![0, o] c hks) (ix2 y0 d)
      = Cert.Spec.attK (M := 2048) (D := 64) (fun d' => a (ix2 y0 (pairCol y1 d'))) (fun m d' => b (ix2 m (pairCol y1 d')))
          (fun m => c (ix2 m y1)) := by
  rw [headOut_apply]
  have hq : ∀ d' : Fin 64, extractStridedSlice S512x64 ![0, o] a hqs (ix2 y0 d') = a (ix2 y0 (pairCol y1 d')) :=
    fun d' => slice2_axis1_apply o a hqs y0 d' (pairCol y1 d') (by show y1.val / 64 * 64 + d'.val = o + d'.val; omega)
  have hk : ∀ (m : Fin 2048) (d' : Fin 64), extractStridedSlice S2048x64 ![0, o] b hks (ix2 m d') = b (ix2 m (pairCol y1 d')) :=
    fun m d' => slice2_axis1_apply o b hks m d' (pairCol y1 d') (by show y1.val / 64 * 64 + d'.val = o + d'.val; omega)
  have hv : ∀ m : Fin 2048, extractStridedSlice S2048x64 ![0, o] c hks (ix2 m d) = c (ix2 m y1) :=
    fun m => slice2_axis1_apply o c hks m d y1 hd
  simp only [hq, hk, hv]

/-- The first head, as the body computes it, is the head over columns 0–63. -/
theorem pay5_eq (a : Vec Ideal S512x128 .bf16) (b c : Vec Ideal S2048x128 .bf16) :
    k1_pay5 a b c = headOut (extractStridedSlice S512x64 ![0, 0] a slices_S512x128_o0_0_S512x64)
      (extractStridedSlice S2048x64 ![0, 0] b slices_S2048x128_o0_0_S2048x64)
      (extractStridedSlice S2048x64 ![0, 0] c slices_S2048x128_o0_0_S2048x64) := by
  unfold k1_pay5 k1_pay2 k1_pay3 k1_pay4
  simp only [shapeCast_self]
  rfl

/-- The exponentials of the second head, as the body computes them. -/
theorem pay7_eq (a : Vec Ideal S512x128 .bf16) (b : Vec Ideal S2048x128 .bf16) :
    k1_pay7 a b = expScores (extractStridedSlice S512x64 ![0, 64] a slices_S512x128_o0_64_S512x64)
      (extractStridedSlice S2048x64 ![0, 64] b slices_S2048x128_o0_64_S2048x64) := by
  unfold k1_pay7 k1_pay2 k1_pay3
  simp only [shapeCast_self]
  rfl

/-- The second head's values: columns 64–127 of the value block. -/
theorem pay6_eq (c : Vec Ideal S2048x128 .bf16) :
    k1_pay6 c = extractStridedSlice S2048x64 ![0, 64] c slices_S2048x128_o0_64_S2048x64 := by
  unfold k1_pay6 k1_pay4
  simp only [shapeCast_self]

/-- The stored block is the two heads side by side. -/
theorem pay1_eq (a : Vec Ideal S512x128 .bf16) (b c : Vec Ideal S2048x128 .bf16) :
    k1_pay1 (k1_pay5 a b c) (k1_pay6 c) (k1_pay8 a b) (k1_pay9 a b)
      = concatenate S512x128 1
          [⟨S512x64, headOut (extractStridedSlice S512x64 ![0, 0] a slices_S512x128_o0_0_S512x64)
              (extractStridedSlice S2048x64 ![0, 0] b slices_S2048x128_o0_0_S2048x64)
              (extractStridedSlice S2048x64 ![0, 0] c slices_S2048x128_o0_0_S2048x64)⟩,
           ⟨S512x64, headOut (extractStridedSlice S512x64 ![0, 64] a slices_S512x128_o0_64_S512x64)
              (extractStridedSlice S2048x64 ![0, 64] b slices_S2048x128_o0_64_S2048x64)
              (extractStridedSlice S2048x64 ![0, 64] c slices_S2048x128_o0_64_S2048x64)⟩]
          concatenates_S512x64_S512x64_S512x128_d1 := by
  rw [pay5_eq, pay6_eq]
  unfold k1_pay1 k1_pay8 k1_pay9
  rw [pay7_eq]
  rfl

/-- The stored block at row `y0`, column `y1`: the attention of query row `y0` (its head's 64 columns) against the
    2048 keys (the same 64 columns) and the value column `y1`. -/
theorem pay1_apply (a : Vec Ideal S512x128 .bf16) (b c : Vec Ideal S2048x128 .bf16) (y0 : Fin 512) (y1 : Fin 128) :
    k1_pay1 (k1_pay5 a b c) (k1_pay6 c) (k1_pay8 a b) (k1_pay9 a b) (ix2 y0 y1)
      = Cert.Spec.attK (M := 2048) (D := 64) (fun d' => a (ix2 y0 (pairCol y1 d'))) (fun m d' => b (ix2 m (pairCol y1 d')))
          (fun m => c (ix2 m y1)) := by
  rw [pay1_eq]
  by_cases h : y1.val < 64
  · refine (concatenate_pair_apply_left (1 : Fin S512x128.rank) _ _ concatenates_S512x64_S512x64_S512x128_d1 (ix2 y0 y1) rfl
      (ix2 y0 (⟨y1.val, h⟩ : Fin 64)) (fun ax => by match ax with | ⟨0, _⟩ => rfl | ⟨1, _⟩ => rfl)).trans ?_
    exact headOut_slices_apply 0 _ _ a b c y0 y1 ⟨y1.val, h⟩ (by omega) (by show y1.val = 0 + y1.val; omega)
  · have h2 : y1.val - 64 < 64 := by have := y1.isLt; omega
    refine (concatenate_pair_apply_right (1 : Fin S512x128.rank) _ _ concatenates_S512x64_S512x64_S512x128_d1 (ix2 y0 y1) rfl rfl
      (ix2 y0 (⟨y1.val - 64, h2⟩ : Fin 64)) (fun ax => by
        match ax with
        | ⟨0, _⟩ => exact fun _ => rfl
        | ⟨1, _⟩ => exact fun hb => absurd rfl hb)
      (by show (y1.val - 64) + 64 = y1.val; omega)).trans ?_
    exact headOut_slices_apply 64 _ _ a b c y0 y1 ⟨y1.val - 64, h2⟩ (by have := y1.isLt; omega) (by show y1.val = 64 + (y1.val - 64); omega)

end Cert.KernelIdeal.Hand

end
-- ==== Proof.KI.Val1.lean ====
/-
  Region 1: the array the attention kernel leaves, index by index.  Each grid point (batch, head pair, query tile)
  reads a [512, 128] block of queries and the [2048, 128] blocks of keys and values of its batch and head pair out
  of the one projected array, and writes the [512, 128] block of attention outputs; the blocks tile the output
  array, and each output element is the attention of its query row (its head's 64 columns) against the 2048 keys of
  its batch and the value column of its head and depth.
-/
import proofs.«423763_j74002286510487_3_alg».proof.Proof.KI.Pay1
import proofs.«423763_j74002286510487_3_alg».proof.Proof.KI.Body1
import proofs.«423763_j74002286510487_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx (ix2)

/-! ## The output block after the body -/

/-- The stored block at any index of the block, by its two coordinates. -/
theorem pay1_at (a : Vec Ideal S512x128 .bf16) (b c : Vec Ideal S2048x128 .bf16) (j : S512x128.Idx) :
    (k1_pay1 (F := Ideal) (k1_pay5 a b c) (k1_pay6 c) (k1_pay8 a b) (k1_pay9 a b) : S512x128.Idx → EReal) j
      = Cert.Spec.attK (M := 2048) (D := 64) (fun d' => (a : S512x128.Idx → EReal) (ix2 (j 0) (pairCol (j 1) d')))
          (fun m d' => (b : S2048x128.Idx → EReal) (ix2 m (pairCol (j 1) d'))) (fun m => (c : S2048x128.Idx → EReal) (ix2 m (j 1))) :=
  (congrArg (k1_pay1 (F := Ideal) (k1_pay5 a b c) (k1_pay6 c) (k1_pay8 a b) (k1_pay9 a b) : S512x128.Idx → EReal) (ValueIdx.eq_ix2 j)).trans
    (pay1_apply a b c (j 0) (j 1))

theorem zero_off1 : (![0, 0] : Fin 2 → Nat) = fun _ => 0 := funext fun a => by fin_cases a <;> rfl

/-- One whole-block store of the payload of three whole-block loads: the block holds the payload of the blocks. -/
theorem out1_eq (x0 : Vec Ideal S512x128 .bf16) (x1 x2 : Vec Ideal S2048x128 .bf16) :
    out1 (F := Ideal) x0 x1 x2 = k1_pay1 (F := Ideal) (k1_pay5 x0 x1 x2) (k1_pay6 x2) (k1_pay8 x0 x1) (k1_pay9 x0 x1) := by
  unfold out1
  rw [View.canon_unit_zero zero_off1]
  simp only [View.ld_unit_zero (S := S512x128) zero_off1, View.ld_unit_zero (S := S2048x128) zero_off1]

/-! ## The input blocks as parts of the projected array -/

variable (V : (c : Dev nD) → (b : Ref sig .tc) → Buf (Elt Ideal) ((c : Thread nD τ).loc b))

/-- The block indices over the grid.  Point `t` is batch `t / 32`, head pair `t / 4 % 8`, query tile `t % 4`: the query and
    output blocks are row block `4 · batch + tile`, column block the head pair; the key and value blocks are row block
    the batch, column block the head pair past the 8 query (resp. 16 query and key) column blocks. -/
theorem idx_facts1 : ∀ t : Fin cfg1.N,
    win1_0.index t (0 : Fin 2) = t.val / 32 * 4 + t.val % 4 ∧ win1_0.index t (1 : Fin 2) = t.val / 4 % 8
    ∧ win1_1.index t (0 : Fin 2) = t.val / 32 ∧ win1_1.index t (1 : Fin 2) = 8 + t.val / 4 % 8
    ∧ win1_2.index t (0 : Fin 2) = t.val / 32 ∧ win1_2.index t (1 : Fin 2) = 16 + t.val / 4 % 8
    ∧ win1_3.index t (0 : Fin 2) = t.val / 32 * 4 + t.val % 4 ∧ win1_3.index t (1 : Fin 2) = t.val / 4 % 8 :=
  (by decide +kernel : ∀ t : Fin grid1.N, _)

/-- The query block at point `t`: 512 rows from row block `4 · batch + tile`, 128 columns from the head pair's. -/
theorem iblk1_0_apply (c : Dev nD) (t : Fin cfg1.N) (x : S512x128.Idx) (i : S4096x3072.Idx)
    (h0 : (i 0).val = (t.val / 32 * 4 + t.val % 4) * 512 + (x 0).val) (h1 : (i 1).val = t.val / 4 % 8 * 128 + (x 1).val) :
    (iblk1 V c 0 t : S512x128.Idx → EReal) x = (V c main_v5 : S4096x3072.Idx → EReal) i := by
  obtain ⟨e0, e1, -⟩ := idx_facts1 t
  unfold iblk1
  rw [View.read_apply]
  show (V c main_v5 : S4096x3072.Idx → EReal) _ = _
  congr 1
  funext a
  apply Fin.ext
  match a with
  | ⟨0, _⟩ => show win1_0.index t (0 : Fin 2) * 512 + 1 * (x 0).val = (i 0).val; rw [e0, h0]; omega
  | ⟨1, _⟩ => show win1_0.index t (1 : Fin 2) * 128 + 1 * (x 1).val = (i 1).val; rw [e1, h1]; omega

/-- The key block at point `t`: the batch's 2048 rows, 128 columns from the head pair's among the keys. -/
theorem iblk1_1_apply (c : Dev nD) (t : Fin cfg1.N) (x : S2048x128.Idx) (i : S4096x3072.Idx)
    (h0 : (i 0).val = t.val / 32 * 2048 + (x 0).val) (h1 : (i 1).val = (8 + t.val / 4 % 8) * 128 + (x 1).val) :
    (iblk1 V c 1 t : S2048x128.Idx → EReal) x = (V c main_v5 : S4096x3072.Idx → EReal) i := by
  obtain ⟨-, -, e0, e1, -⟩ := idx_facts1 t
  unfold iblk1
  rw [View.read_apply]
  show (V c main_v5 : S4096x3072.Idx → EReal) _ = _
  congr 1
  funext a
  apply Fin.ext
  match a with
  | ⟨0, _⟩ => show win1_1.index t (0 : Fin 2) * 2048 + 1 * (x 0).val = (i 0).val; rw [e0, h0]; omega
  | ⟨1, _⟩ => show win1_1.index t (1 : Fin 2) * 128 + 1 * (x 1).val = (i 1).val; rw [e1, h1]; omega

/-- The value block at point `t`: the batch's 2048 rows, 128 columns from the head pair's among the values. -/
theorem iblk1_2_apply (c : Dev nD) (t : Fin cfg1.N) (x : S2048x128.Idx) (i : S4096x3072.Idx)
    (h0 : (i 0).val = t.val / 32 * 2048 + (x 0).val) (h1 : (i 1).val = (16 + t.val / 4 % 8) * 128 + (x 1).val) :
    (iblk1 V c 2 t : S2048x128.Idx → EReal) x = (V c main_v5 : S4096x3072.Idx → EReal) i := by
  obtain ⟨-, -, -, -, e0, e1, -⟩ := idx_facts1 t
  unfold iblk1
  rw [View.read_apply]
  show (V c main_v5 : S4096x3072.Idx → EReal) _ = _
  congr 1
  funext a
  apply Fin.ext
  match a with
  | ⟨0, _⟩ => show win1_2.index t (0 : Fin 2) * 2048 + 1 * (x 0).val = (i 0).val; rw [e0, h0]; omega
  | ⟨1, _⟩ => show win1_2.index t (1 : Fin 2) * 128 + 1 * (x 1).val = (i 1).val; rw [e1, h1]; omega

/-! ## From the blocks to the array -/

/-- The whole output array: at row `r` and column `j`, the attention over the projected array. -/
def attn1 (c : Dev nD) : S4096x1024.Idx → EReal := fun i =>
  Cert.Spec.attnK (fun r' o' => (V c main_v5 : S4096x3072.Idx → EReal) (ix2 r' o')) (i 0) (i 1)

/-- What point `t` writes back is its block of that array. -/
theorem flushed1_eq (c : Dev nD) (t : Fin cfg1.N) :
    (dat1 (F := Ideal) V c).flushed 3 t = ((cfg1.win 3).blk t).view.read (Elt Ideal) (attn1 V c) := by
  show (cfg1.win 3).cut (grid1.coords t) ((dat1 (F := Ideal) V c).after 3 t) = _
  rw [after1_3, out1_eq]
  obtain ⟨-, -, -, -, -, -, e0, e1⟩ := idx_facts1 t
  have ht : t.val < 64 := Nat.lt_of_lt_of_eq t.isLt N_1
  funext j
  show (k1_pay1 (F := Ideal) (k1_pay5 (iblk1 V c 0 t) (iblk1 V c 1 t) (iblk1 V c 2 t)) (k1_pay6 (iblk1 V c 2 t))
      (k1_pay8 (iblk1 V c 0 t) (iblk1 V c 1 t)) (k1_pay9 (iblk1 V c 0 t) (iblk1 V c 1 t)) : S512x128.Idx → EReal) (fun a => ⟨(j a).val, _⟩)
    = attn1 V c (((cfg1.win 3).blk t).view.emb j)
  rw [pay1_at]
  unfold attn1 Cert.Spec.attnK
  have hj0 : (j 0).val < 512 := (j 0).isLt
  have hj1 : (j 1).val < 128 := (j 1).isLt
  have hr : ((((cfg1.win 3).blk t).view.emb j) 0).val = (t.val / 32 * 4 + t.val % 4) * 512 + (j 0).val := by
    show win1_3.index t (0 : Fin 2) * 512 + 1 * (j 0).val = _; rw [e0]; omega
  have hc : ((((cfg1.win 3).blk t).view.emb j) 1).val = t.val / 4 % 8 * 128 + (j 1).val := by
    show win1_3.index t (1 : Fin 2) * 128 + 1 * (j 1).val = _; rw [e1]; omega
  congr 1
  · funext d'
    have hd : d'.val < 64 := d'.isLt
    refine iblk1_0_apply V c t _ _ hr ?_
    show 0 * 1024 + ((((cfg1.win 3).blk t).view.emb j) 1).val / 64 * 64 + d'.val = t.val / 4 % 8 * 128 + ((j 1).val / 64 * 64 + d'.val)
    rw [hc]; omega
  · funext m d'
    have hd : d'.val < 64 := d'.isLt
    have hm : m.val < 2048 := m.isLt
    refine iblk1_1_apply V c t _ _ ?_ ?_
    · show ((((cfg1.win 3).blk t).view.emb j) 0).val / 2048 * 2048 + m.val = t.val / 32 * 2048 + m.val
      rw [hr]; omega
    · show 1 * 1024 + ((((cfg1.win 3).blk t).view.emb j) 1).val / 64 * 64 + d'.val = (8 + t.val / 4 % 8) * 128 + ((j 1).val / 64 * 64 + d'.val)
      rw [hc]; omega
  · funext m
    have hm : m.val < 2048 := m.isLt
    refine iblk1_2_apply V c t _ _ ?_ ?_
    · show ((((cfg1.win 3).blk t).view.emb j) 0).val / 2048 * 2048 + m.val = t.val / 32 * 2048 + m.val
      rw [hr]; omega
    · show 2 * 1024 + ((((cfg1.win 3).blk t).view.emb j) 1).val / 64 * 64 + ((((cfg1.win 3).blk t).view.emb j) 1).val % 64 = (16 + t.val / 4 % 8) * 128 + (j 1).val
      rw [hc]; omega

/-- An index of the array is in point `t`'s block iff each coordinate is in the block's range on its axis. -/
theorem mem_blk1 (t : Fin cfg1.N) (i : S4096x1024.Idx) :
    i ∈ ((cfg1.win 3).blk t).view.set ↔ ∀ a : Fin 2, win1_3.index t a * S512x128.size a ≤ (i a).val ∧ (i a).val < win1_3.index t a * S512x128.size a + S512x128.size a := by
  show i ∈ ((View.whole main_v6).slice (win1_3.rect t)).set ↔ _
  rw [View.set_slice_whole, Rect.mem_set_unit]
  exact Iff.rfl

/-- Row `r`, column `j` lies in the block of batch `r / 2048`, head pair `j / 128`, query tile `r % 2048 / 512`. -/
theorem blocks_cover1 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 64 := N_1
  have hT : ((i 0).val / 2048 * 8 + (i 1).val / 128) * 4 + (i 0).val % 2048 / 512 < cfg1.N := by rw [hN]; omega
  refine ⟨⟨((i 0).val / 2048 * 8 + (i 1).val / 128) * 4 + (i 0).val % 2048 / 512, hT⟩, flush1_3 _, ?_⟩
  rw [mem_blk1]
  obtain ⟨-, -, -, -, -, -, e0, e1⟩ := idx_facts1 ⟨((i 0).val / 2048 * 8 + (i 1).val / 128) * 4 + (i 0).val % 2048 / 512, hT⟩
  intro a
  match a with
  | ⟨0, _⟩ =>
    show win1_3.index _ (0 : Fin 2) * 512 ≤ (i 0).val ∧ (i 0).val < win1_3.index _ (0 : Fin 2) * 512 + 512
    rw [e0]
    show ((((i 0).val / 2048 * 8 + (i 1).val / 128) * 4 + (i 0).val % 2048 / 512) / 32 * 4 + (((i 0).val / 2048 * 8 + (i 1).val / 128) * 4 + (i 0).val % 2048 / 512) % 4) * 512 ≤ (i 0).val
      ∧ (i 0).val < ((((i 0).val / 2048 * 8 + (i 1).val / 128) * 4 + (i 0).val % 2048 / 512) / 32 * 4 + (((i 0).val / 2048 * 8 + (i 1).val / 128) * 4 + (i 0).val % 2048 / 512) % 4) * 512 + 512
    omega
  | ⟨1, _⟩ =>
    show win1_3.index _ (1 : Fin 2) * 128 ≤ (i 1).val ∧ (i 1).val < win1_3.index _ (1 : Fin 2) * 128 + 128
    rw [e1]
    show (((i 0).val / 2048 * 8 + (i 1).val / 128) * 4 + (i 0).val % 2048 / 512) / 4 % 8 * 128 ≤ (i 1).val
      ∧ (i 1).val < (((i 0).val / 2048 * 8 + (i 1).val / 128) * 4 + (i 0).val % 2048 / 512) / 4 % 8 * 128 + 128
    omega

/-- The array after the region. -/
theorem arr1_eq (c : Dev nD) : (dat1 (F := Ideal) V c).arrAt 3 cfg1.N = attn1 V c :=
  (dat1 (F := Ideal) V c).arrAt_eq_of_cover 3 (attn1 V c) (fun t _ => flushed1_eq V c t) (blocks_cover1)

/-- The array after the region at row `r` and column `j`. -/
theorem arr1_apply (c : Dev nD) (r : Fin 4096) (j : Fin 1024) :
    ((dat1 (F := Ideal) V c).arrAt 3 cfg1.N : S4096x1024.Idx → EReal) (ix2 r j)
      = Cert.Spec.attnK (fun r' o' => (V c main_v5 : S4096x3072.Idx → EReal) (ix2 r' o')) r j := by
  rw [arr1_eq]
  rfl

end Cert.KernelIdeal.Hand

end
-- ==== Proof.KI.Val2.lean ====
/-
  Region 2: the array the row-tiled linear layer leaves, index by index: each output element is the inner
  product of a row of the input with a row of the weight, plus the bias at that column.
-/
import proofs.«423763_j74002286510487_3_alg».proof.Proof.KI.Body2
import proofs.«423763_j74002286510487_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)
open Idealize.ShloMosaic.ValueIdx (ix2)

/-! ## The matrix product at an index -/

theorem lhs_dot2_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_dot2_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_dot2_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_dot2_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of a block of rows with the transposed weight, into the zero accumulator, at row `p` and column `q`:
    the inner product of row `p` of the block with row `q` of the weight. -/
theorem dot2_apply (x0 : FVec Ideal S512x1024 .bf16) (x1 : FVec Ideal S1024x1024 .bf16) (p : Fin 512) (q : Fin 1024) :
    matmul (F := Ideal) dot_S512x1024_S1024x1024_S512x1024_1_1_0_0_n_n none x0 x1 (constant (F := Ideal) S512x1024 .f32 0x00000000#32) (ix2 p q)
      = ∑ k : Fin 1024, x0 (ix2 p k) * x1 (ix2 q k) := by
  show FloatOps.matmul _ _ _ _ _ _ = _
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact lhs_dot2_0 _ _
    | ⟨1, _⟩ => exact (lhs_dot2_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact rhs_dot2_0 _ _
    | ⟨1, _⟩ => exact (rhs_dot2_1 _ _).trans hk)
  rw [el, er]

/-- The body's payload at row `p` and column `q` of its block: the inner product plus the bias at column `q`. -/
theorem pay2_apply (x0 : Vec Ideal S512x1024 .bf16) (x1 : Vec Ideal S1024x1024 .bf16) (x2 : Vec Ideal S1x1024 .f32) (p : Fin 512) (q : Fin 1024) :
    (k2_pay1 (F := Ideal) x0 x1 x2 : S512x1024.Idx → EReal) (ix2 p q)
      = (∑ k : Fin 1024, (x0 : S512x1024.Idx → EReal) (ix2 p k) * (x1 : S1024x1024.Idx → EReal) (ix2 q k)) + (x2 : S1x1024.Idx → EReal) (ix2 0 q) := by
  unfold k2_pay1
  simp only [shapeCast_self]
  rw [ValueIdx.addf_apply, dot2_apply, ValueIdx.broadcastTo_1b_ab_apply]

theorem pay2_at (x0 : Vec Ideal S512x1024 .bf16) (x1 : Vec Ideal S1024x1024 .bf16) (x2 : Vec Ideal S1x1024 .f32) (j : S512x1024.Idx) :
    (k2_pay1 (F := Ideal) x0 x1 x2 : S512x1024.Idx → EReal) j
      = (∑ k : Fin 1024, (x0 : S512x1024.Idx → EReal) (ix2 (j 0) k) * (x1 : S1024x1024.Idx → EReal) (ix2 (j 1) k)) + (x2 : S1x1024.Idx → EReal) (ix2 0 (j 1)) :=
  (congrArg (k2_pay1 (F := Ideal) x0 x1 x2 : S512x1024.Idx → EReal) (ValueIdx.eq_ix2 j)).trans (pay2_apply x0 x1 x2 (j 0) (j 1))

/-! ## The output block after the body -/

theorem zero_off2 : (![0, 0] : Fin 2 → Nat) = fun _ => 0 := funext fun a => by fin_cases a <;> rfl

/-- One whole-block store of the payload of three whole-block loads: the block holds the payload of the blocks. -/
theorem out2_eq (x0 : Vec Ideal S512x1024 .bf16) (x1 : Vec Ideal S1024x1024 .bf16) (x2 : Vec Ideal S1x1024 .f32) :
    out2 (F := Ideal) x0 x1 x2 = k2_pay1 (F := Ideal) x0 x1 x2 := by
  unfold out2
  rw [View.canon_unit_zero zero_off2]
  simp only [View.ld_unit_zero (S := S512x1024) zero_off2, View.ld_unit_zero (S := S1024x1024) zero_off2, View.ld_unit_zero (S := S1x1024) zero_off2]

/-! ## The input blocks as parts of their arrays -/

variable (V : (c : Dev nD) → (b : Ref sig .tc) → Buf (Elt Ideal) ((c : Thread nD τ).loc b))

/-- The block indices over the grid: the input rows and the output rows move with the point, the weight and the
    bias stay at their one block. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point `t` is rows `512 t …` of the input array. -/
theorem iblk2_0_apply (c : Dev nD) (t : Fin cfg2.N) (x : S512x1024.Idx) (i : S4096x1024.Idx)
    (h0 : (i 0).val = 512 * t.val + (x 0).val) (h1 : (i 1).val = (x 1).val) :
    (iblk2 V c 0 t : S512x1024.Idx → EReal) x = (V c main_v6 : S4096x1024.Idx → EReal) i := by
  obtain ⟨e0, e1, -⟩ := idx_facts2 t
  unfold iblk2
  rw [View.read_apply]
  show (V c main_v6 : S4096x1024.Idx → EReal) _ = _
  congr 1
  funext a
  apply Fin.ext
  match a with
  | ⟨0, _⟩ => show win2_0.index t (0 : Fin 2) * 512 + 1 * (x 0).val = (i 0).val; rw [e0, h0]; omega
  | ⟨1, _⟩ => show win2_0.index t (1 : Fin 2) * 1024 + 1 * (x 1).val = (i 1).val; rw [e1, h1]; omega

/-- The weight's block is the whole weight at every point. -/
theorem iblk2_1_apply (c : Dev nD) (t : Fin cfg2.N) (x : S1024x1024.Idx) :
    (iblk2 V c 1 t : S1024x1024.Idx → EReal) x = (V c main_v3 : S1024x1024.Idx → EReal) x := by
  obtain ⟨-, -, e0, e1, -⟩ := idx_facts2 t
  unfold iblk2
  rw [View.read_apply]
  show (V c main_v3 : S1024x1024.Idx → EReal) _ = _
  congr 1
  funext a
  apply Fin.ext
  match a with
  | ⟨0, _⟩ => show win2_1.index t (0 : Fin 2) * 1024 + 1 * (x 0).val = (x 0).val; rw [e0]; omega
  | ⟨1, _⟩ => show win2_1.index t (1 : Fin 2) * 1024 + 1 * (x 1).val = (x 1).val; rw [e1]; omega

/-- The bias's block is the whole bias at every point. -/
theorem iblk2_2_apply (c : Dev nD) (t : Fin cfg2.N) (x : S1x1024.Idx) :
    (iblk2 V c 2 t : S1x1024.Idx → EReal) x = (V c main_v7 : S1x1024.Idx → EReal) x := by
  obtain ⟨-, -, -, -, e0, e1, -⟩ := idx_facts2 t
  unfold iblk2
  rw [View.read_apply]
  show (V c main_v7 : S1x1024.Idx → EReal) _ = _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 1024 + 1 * (x 1).val = (x 1).val; rw [e1]; omega

/-! ## From the blocks to the array -/

/-- The whole output array: at row `r` and column `o`, the inner product of row `r` of the input with row `o` of the
    weight, plus the bias at `o`. -/
def lin2 (c : Dev nD) : S4096x1024.Idx → EReal := fun i =>
  Cert.Spec.lin (fun k : Fin 1024 => (V c main_v6 : S4096x1024.Idx → EReal) (ix2 (i 0) k))
    (fun k : Fin 1024 => (V c main_v3 : S1024x1024.Idx → EReal) (ix2 (i 1) k))
    ((V c main_v7 : S1x1024.Idx → EReal) (ix2 0 (i 1)))

/-- What point `t` writes back is block `t` of that array. -/
theorem flushed2_eq (c : Dev nD) (t : Fin cfg2.N) :
    (dat2 (F := Ideal) V c).flushed 3 t = ((cfg2.win 3).blk t).view.read (Elt Ideal) (lin2 V c) := by
  show (cfg2.win 3).cut (grid2.coords t) ((dat2 (F := Ideal) V c).after 3 t) = _
  rw [after2_3, out2_eq]
  obtain ⟨-, -, -, -, -, -, e0, e1⟩ := idx_facts2 t
  funext j
  show (k2_pay1 (F := Ideal) (iblk2 V c 0 t) (iblk2 V c 1 t) (iblk2 V c 2 t) : S512x1024.Idx → EReal) (fun a => ⟨(j a).val, _⟩)
    = lin2 V c (((cfg2.win 3).blk t).view.emb j)
  rw [pay2_at]
  unfold lin2 Cert.Spec.lin
  have hr : ((((cfg2.win 3).blk t).view.emb j) 0).val = 512 * t.val + (j 0).val := by
    show win2_3.index t (0 : Fin 2) * 512 + 1 * (j 0).val = _; rw [e0]; omega
  have hc : ((((cfg2.win 3).blk t).view.emb j) 1).val = (j 1).val := by
    show win2_3.index t (1 : Fin 2) * 1024 + 1 * (j 1).val = _; rw [e1]; omega
  congr 1
  · refine Finset.sum_congr rfl fun k _ => ?_
    congr 1
    · exact iblk2_0_apply V c t _ _ hr rfl
    · rw [iblk2_1_apply]
      exact congrArg _ (funext fun a => Fin.ext (by
        match a with
        | ⟨0, _⟩ => exact hc.symm
        | ⟨1, _⟩ => rfl))
  · rw [iblk2_2_apply]
    exact congrArg _ (funext fun a => Fin.ext (by
      match a with
      | ⟨0, _⟩ => rfl
      | ⟨1, _⟩ => exact hc.symm))

/-- An index of the array is in point `t`'s block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v8).slice (win2_3.rect t)).set ↔ _
  rw [View.set_slice_whole, Rect.mem_set_unit]
  exact Iff.rfl

/-- Row `r` lies in the block of point `r / 512`. -/
theorem rows_cover2 (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  have hN : cfg2.N = 8 := N_2
  refine ⟨⟨(i 0).val / 512, by rw [hN]; omega⟩, flush2_3 _, ?_⟩
  rw [mem_blk2]
  obtain ⟨-, -, -, -, -, -, e0, e1⟩ := idx_facts2 ⟨(i 0).val / 512, by rw [hN]; omega⟩
  intro a
  match a with
  | ⟨0, _⟩ =>
    show win2_3.index _ (0 : Fin 2) * 512 ≤ (i 0).val ∧ (i 0).val < win2_3.index _ (0 : Fin 2) * 512 + 512
    rw [e0]; show (i 0).val / 512 * 512 ≤ (i 0).val ∧ (i 0).val < (i 0).val / 512 * 512 + 512; omega
  | ⟨1, _⟩ =>
    show win2_3.index _ (1 : Fin 2) * 1024 ≤ (i 1).val ∧ (i 1).val < win2_3.index _ (1 : Fin 2) * 1024 + 1024
    rw [e1]; omega

/-- The array after the region. -/
theorem arr2_eq (c : Dev nD) : (dat2 (F := Ideal) V c).arrAt 3 cfg2.N = lin2 V c :=
  (dat2 (F := Ideal) V c).arrAt_eq_of_cover 3 (lin2 V c) (fun t _ => flushed2_eq V c t) (rows_cover2)

theorem arr2_apply (c : Dev nD) (r : Fin 4096) (o : Fin 1024) :
    ((dat2 (F := Ideal) V c).arrAt 3 cfg2.N : S4096x1024.Idx → EReal) (ix2 r o)
      = Cert.Spec.lin (fun k : Fin 1024 => (V c main_v6 : S4096x1024.Idx → EReal) (ix2 r k))
          (fun k : Fin 1024 => (V c main_v3 : S1024x1024.Idx → EReal) (ix2 o k))
          ((V c main_v7 : S1x1024.Idx → EReal) (ix2 0 o)) := by
  rw [arr2_eq]
  rfl

end Cert.KernelIdeal.Hand

end
-- ==== Proof.KI.Result.lean ====
/-
  The kernel program's result array, index by index, is the flat specification in the kernel's arrangement:
  the contents at the last segment boundary are unfolded through the three regions (each region's output array
  is the linear layer, or the attention, of the arrays it was entered with) and the host operations between them
  (reshapes, which only renumber, and changes of float format, which are the identity on extended reals).
-/
import proofs.«423763_j74002286510487_3_alg».proof.Proof.KI.Run
import proofs.«423763_j74002286510487_3_alg».proof.Proof.KI.Val0
import proofs.«423763_j74002286510487_3_alg».proof.Proof.KI.Val1
import proofs.«423763_j74002286510487_3_alg».proof.Proof.KI.Val2
import Idealize.ShloMosaic.Lib.StableHlo.Run
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo Idealize.ShloMosaic.ValueIdx Cert.Spec

variable (m : (ℓ : Loc nD τ sig) → Buf (Elt Ideal) ℓ) (ρ : Dev nD → PrngReg)

/-- The five argument arrays of core `c` as flat families. -/
abbrev aX (c : Dev nD) : Fin 4096 → Fin 1024 → EReal := fun r k => (m ((c : Thread nD τ).loc main_arg0) : S2x2048x1024.Idx → EReal) (ix3 (bOf r) (nOf r) k)
abbrev aWq (c : Dev nD) : Fin 3072 → Fin 1024 → EReal := fun o k => (m ((c : Thread nD τ).loc main_arg1) : S3072x1024.Idx → EReal) (ix2 o k)
abbrev aBq (c : Dev nD) : Fin 3072 → EReal := fun o => (m ((c : Thread nD τ).loc main_arg2) : S3072.Idx → EReal) (ix1 o)
abbrev aWp (c : Dev nD) : Fin 1024 → Fin 1024 → EReal := fun o k => (m ((c : Thread nD τ).loc main_arg3) : S1024x1024.Idx → EReal) (ix2 o k)
abbrev aBp (c : Dev nD) : Fin 1024 → EReal := fun o => (m ((c : Thread nD τ).loc main_arg4) : S1024.Idx → EReal) (ix1 o)

/-! ## The first host stretch: region 0's operands -/

theorem V1_v1 (c : Dev nD) (r : Fin 4096) (k : Fin 1024) :
    (V1 m ρ c main_v1 : S4096x1024.Idx → EReal) (ix2 r k) = aX m c r k := by
  have e : V1 m ρ c main_v1
      = (truncf (F := Ideal) .bf16 (shapeCast S4096x1024 (m ((c : Thread nD τ).loc main_arg0) : FVec Ideal S2x2048x1024 .f32) shapeCasts_S2x2048x1024_S4096x1024) bitsLt_bf16_f32 : FVec Ideal S4096x1024 .bf16) := by
    show StableHlo.after hostOps0 (fun b => m (c, b)) (Proc.devRef .tc main_v1) = _
    after_results <;> rfl
  rw [e]
  show shapeCast S4096x1024 _ shapeCasts_S2x2048x1024_S4096x1024 (ix2 r k) = _
  refine shapeCast_apply _ _ _ (ix3 (bOf r) (nOf r) k) ?_
  rw [Shape.rowMajor_val_three, Shape.rowMajor_val_two]
  show ((r.val / 2048) * 2048 + r.val % 2048) * 1024 + k.val = r.val * 1024 + k.val
  have := Nat.div_add_mod r.val 2048; omega

theorem V1_v2 (c : Dev nD) (o : Fin 3072) (k : Fin 1024) :
    (V1 m ρ c main_v2 : S3072x1024.Idx → EReal) (ix2 o k) = aWq m c o k := by
  have e : V1 m ρ c main_v2
      = (truncf (F := Ideal) .bf16 (m ((c : Thread nD τ).loc main_arg1) : FVec Ideal S3072x1024 .f32) bitsLt_bf16_f32 : FVec Ideal S3072x1024 .bf16) := by
    show StableHlo.after hostOps0 (fun b => m (c, b)) (Proc.devRef .tc main_v2) = _
    after_results <;> rfl
  rw [e]; rfl

theorem V1_v4 (c : Dev nD) (o : Fin 3072) :
    (V1 m ρ c main_v4 : S1x3072.Idx → EReal) (ix2 0 o) = aBq m c o := by
  have e : V1 m ρ c main_v4
      = (shapeCast S1x3072 (m ((c : Thread nD τ).loc main_arg2) : FVec Ideal S3072 .f32) shapeCasts_S3072_S1x3072 : FVec Ideal S1x3072 .f32) := by
    show StableHlo.after hostOps0 (fun b => m (c, b)) (Proc.devRef .tc main_v4) = _
    after_results <;> rfl
  rw [e]
  refine shapeCast_apply _ _ _ (ix1 o) ?_
  rw [Shape.rowMajor_val_two, Shape.rowMajor_val_one]
  show o.val = 0 * 3072 + o.val
  omega

/-- Region 0's output array is the projection to queries, keys and values. -/
theorem V2_v5 (c : Dev nD) (r : Fin 4096) (o : Fin 3072) :
    (V2 m ρ c main_v5 : S4096x3072.Idx → EReal) (ix2 r o) = qkv (aX m c) (aWq m c) (aBq m c) r o := by
  show (W2 m ρ c (Proc.devRef .tc (Pipeline.arrRef spec0 3)) : S4096x3072.Idx → EReal) (ix2 r o) = _
  rw [W2_arr, arr0_apply]
  unfold qkv
  exact (congrArg (fun x => lin x _ _) (funext fun k => V1_v1 m ρ c r k)).trans
    ((congrArg (fun w => lin _ w _) (funext fun k => V1_v2 m ρ c o k)).trans
      (congrArg (fun b => lin _ _ b) (V1_v4 m ρ c o)))

/-- Region 1's output array is the attention over it. -/
theorem V3_v6 (c : Dev nD) (r : Fin 4096) (j : Fin 1024) :
    (V3 m ρ c main_v6 : S4096x1024.Idx → EReal) (ix2 r j) = attnK (qkv (aX m c) (aWq m c) (aBq m c)) r j := by
  show (W3 m ρ c (Proc.devRef .tc main_v6) : S4096x1024.Idx → EReal) (ix2 r j) = _
  rw [W3_out, arr1_apply]
  exact congrArg (fun Q => attnK Q r j) (funext fun r' => funext fun o' => V2_v5 m ρ c r' o')

/-! ## The second host stretch: region 2's operands -/

theorem V4_v6 (c : Dev nD) : V4 m ρ c main_v6 = V3 m ρ c main_v6 := by
  show StableHlo.after hostOps2 (W3 m ρ c) (Proc.devRef .tc main_v6) = _
  after_results <;> rfl

theorem V4_v3 (c : Dev nD) (o : Fin 1024) (k : Fin 1024) :
    (V4 m ρ c main_v3 : S1024x1024.Idx → EReal) (ix2 o k) = aWp m c o k := by
  have e1 : V4 m ρ c main_v3 = W3 m ρ c (Proc.devRef .tc main_v3) := by
    show StableHlo.after hostOps2 (W3 m ρ c) (Proc.devRef .tc main_v3) = _
    after_results <;> rfl
  have e : V1 m ρ c main_v3
      = (truncf (F := Ideal) .bf16 (m ((c : Thread nD τ).loc main_arg3) : FVec Ideal S1024x1024 .f32) bitsLt_bf16_f32 : FVec Ideal S1024x1024 .bf16) := by
    show StableHlo.after hostOps0 (fun b => m (c, b)) (Proc.devRef .tc main_v3) = _
    after_results <;> rfl
  rw [e1, W3_of_ne m ρ c main_v3 (by decide), W2_of_ne m ρ c main_v3 (by decide)]
  show (V1 m ρ c main_v3 : S1024x1024.Idx → EReal) (ix2 o k) = _
  rw [e]; rfl

theorem V4_v7 (c : Dev nD) (o : Fin 1024) :
    (V4 m ρ c main_v7 : S1x1024.Idx → EReal) (ix2 0 o) = aBp m c o := by
  have e : V4 m ρ c main_v7
      = (shapeCast S1x1024 (W3 m ρ c (Proc.devRef .tc main_arg4) : FVec Ideal S1024 .f32) shapeCasts_S1024_S1x1024 : FVec Ideal S1x1024 .f32) := by
    show StableHlo.after hostOps2 (W3 m ρ c) (Proc.devRef .tc main_v7) = _
    after_results <;> rfl
  have e4 : W3 m ρ c (Proc.devRef .tc main_arg4) = m ((c : Thread nD τ).loc main_arg4) := by
    rw [W3_of_ne m ρ c main_arg4 (by decide), W2_of_ne m ρ c main_arg4 (by decide)]
    show StableHlo.after hostOps0 (fun b => m (c, b)) (Proc.devRef .tc main_arg4) = _
    after_results <;> rfl
  rw [e, e4]
  refine shapeCast_apply _ _ _ (ix1 o) ?_
  rw [Shape.rowMajor_val_two, Shape.rowMajor_val_one]
  show o.val = 0 * 1024 + o.val
  omega

/-- Region 2's output array is the output projection. -/
theorem V5_v8 (c : Dev nD) (r : Fin 4096) (o : Fin 1024) :
    (V5 m ρ c main_v8 : S4096x1024.Idx → EReal) (ix2 r o) = fwdK (aX m c) (aWq m c) (aBq m c) (aWp m c) (aBp m c) r o := by
  show (W5 m ρ c (Proc.devRef .tc (Pipeline.arrRef spec2 3)) : S4096x1024.Idx → EReal) (ix2 r o) = _
  rw [W5_arr, arr2_apply]
  unfold fwdK
  exact (congrArg (fun x => lin x _ _) (funext fun k => (congrFun (V4_v6 m ρ c) (ix2 r k)).trans (V3_v6 m ρ c r k))).trans
    ((congrArg (fun w => lin _ w _) (funext fun k => V4_v3 m ρ c o k)).trans
      (congrArg (fun b => lin _ _ b) (V4_v7 m ρ c o)))

/-- The result: the last host operation renumbers rows (batch, position). -/
theorem kernel_apply (c : Dev nD) (b : Fin 2) (n : Fin 2048) (o : Fin 1024) :
    (W6 m ρ c (Proc.devRef .tc main_v9) : S2x2048x1024.Idx → EReal) (ix3 b n o)
      = fwdK (aX m c) (aWq m c) (aBq m c) (aWp m c) (aBp m c) (row b n) o := by
  have e : W6 m ρ c (Proc.devRef .tc main_v9)
      = (shapeCast S2x2048x1024 (V5 m ρ c main_v8 : FVec Ideal S4096x1024 .f32) shapeCasts_S4096x1024_S2x2048x1024 : FVec Ideal S2x2048x1024 .f32) := by
    show StableHlo.after hostOps3 (W5 m ρ c) (Proc.devRef .tc main_v9) = _
    after_results <;> rfl
  rw [e, ← V5_v8]
  refine shapeCast_apply _ _ _ (ix2 (row b n) o) ?_
  rw [Shape.rowMajor_val_three, Shape.rowMajor_val_two]
  rfl

end Cert.KernelIdeal.Hand

end
-- ==== Proof.Ref.lean ====
/-
  The reference program's result, index by index, is the flat specification: a linear layer to
  queries, keys and values, attention head by head with the scores scaled after the inner products
  and each exponential divided by the row sum, and the output projection.
-/
import proofs.«423763_j74002286510487_3_alg».proof.Proof.Gen.ReferenceIdeal.Run
import proofs.«423763_j74002286510487_3_alg».proof.Proof.Gen.ReferenceIdeal.Read
import proofs.«423763_j74002286510487_3_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Spec

/-! ## Index facts of the flat layout -/

theorem bOf_row (b : Fin 2) (n : Fin 2048) : bOf (row b n) = b := by
  apply Fin.ext; show (b.val * 2048 + n.val) / 2048 = b.val; have := n.isLt; omega
theorem nOf_row (b : Fin 2) (n : Fin 2048) : nOf (row b n) = n := by
  apply Fin.ext; show (b.val * 2048 + n.val) % 2048 = n.val; have := n.isLt; omega
theorem hOf_hcol (h : Fin 16) (d : Fin 64) : hOf (hcol h d) = h := by
  apply Fin.ext; show (h.val * 64 + d.val) / 64 = h.val; have := d.isLt; omega
theorem dOf_hcol (h : Fin 16) (d : Fin 64) : dOf (hcol h d) = d := by
  apply Fin.ext; show (h.val * 64 + d.val) % 64 = d.val; have := d.isLt; omega

/-- The five argument arrays as flat families. -/
abbrev X (x0 : (⟨S2x2048x1024, .f32⟩ : BufTy).Contents (Elt Ideal)) : Fin 4096 → Fin 1024 → EReal :=
  fun r c => x0 (ix3 (bOf r) (nOf r) c)
abbrev W (x1 : (⟨S3072x1024, .f32⟩ : BufTy).Contents (Elt Ideal)) : Fin 3072 → Fin 1024 → EReal :=
  fun o c => x1 (ix2 o c)
abbrev B (x2 : (⟨S3072, .f32⟩ : BufTy).Contents (Elt Ideal)) : Fin 3072 → EReal := fun o => x2 (ix1 o)

/-! ## The projection to queries, keys and values -/

theorem lidx0 (b : Fin 2) (n : Fin 2048) (o : Fin 3072) (k : Fin 1024) :
    lidx_main_v0 (ix3 b n o) k = ix3 b n k :=
  funext fun a => Fin.ext (by match a with | ⟨0, _⟩ => rfl | ⟨1, _⟩ => rfl | ⟨2, _⟩ => rfl)
theorem ridx0 (b : Fin 2) (n : Fin 2048) (o : Fin 3072) (k : Fin 1024) :
    ridx_main_v0 (ix3 b n o) k = ix2 o k :=
  funext fun a => Fin.ext (by match a with | ⟨0, _⟩ => rfl | ⟨1, _⟩ => rfl)
theorem idx12 (b : Fin 2) (n : Fin 2048) (o : Fin 3072) :
    idx_main_v1 (idx_main_v2 (ix3 b n o)) = ix1 o :=
  funext fun a => Fin.ext (by match a with | ⟨0, _⟩ => rfl)

theorem qkv_apply (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (b : Fin 2) (n : Fin 2048) (o : Fin 3072) :
    val_main_v3 (F := Ideal) x0 x1 x2 (ix3 b n o) = qkv (X x0) (W x1) (B x2) (row b n) o := by
  rw [val_main_v3_apply, val_main_v0_apply, val_main_v2_apply, val_main_v1_apply]
  simp only [lidx0, ridx0, idx12, Ideal.addf_def, qkv, lin, X, W, B, bOf_row, nOf_row]

/-! ## The three head tensors -/

theorem idxHead (b : Fin 2) (h : Fin 16) (n : Fin 2048) (d : Fin 64) :
    idx_main_v7 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 16 + h.val) * 2048 + n.val) * 64 + d.val) / 2097152 % 2 = b.val; omega
    | ⟨2, _⟩ => show (((b.val * 16 + h.val) * 2048 + n.val) * 64 + d.val) / 131072 % 16 = h.val; omega
    | ⟨3, _⟩ => show (((b.val * 16 + h.val) * 2048 + n.val) * 64 + d.val) / 64 % 2048 = n.val; omega
    | ⟨4, _⟩ => show (((b.val * 16 + h.val) * 2048 + n.val) * 64 + d.val) % 64 = d.val; omega)
theorem idxSlice0 (b : Fin 2) (h : Fin 16) (n : Fin 2048) (d : Fin 64) :
    idx_main_v6 (ix5 (0 : Fin 1) b h n d) = ix5 (0 : Fin 3) b h n d :=
  funext fun a => Fin.ext (by match a with | ⟨0, _⟩ => rfl | ⟨1, _⟩ => rfl | ⟨2, _⟩ => rfl | ⟨3, _⟩ => rfl | ⟨4, _⟩ => rfl)
theorem idxSlice1 (b : Fin 2) (h : Fin 16) (n : Fin 2048) (d : Fin 64) :
    idx_main_v8 (ix5 (0 : Fin 1) b h n d) = ix5 (1 : Fin 3) b h n d :=
  funext fun a => Fin.ext (by match a with | ⟨0, _⟩ => rfl | ⟨1, _⟩ => rfl | ⟨2, _⟩ => rfl | ⟨3, _⟩ => rfl | ⟨4, _⟩ => rfl)
theorem idxSlice2 (b : Fin 2) (h : Fin 16) (n : Fin 2048) (d : Fin 64) :
    idx_main_v10 (ix5 (0 : Fin 1) b h n d) = ix5 (2 : Fin 3) b h n d :=
  funext fun a => Fin.ext (by match a with | ⟨0, _⟩ => rfl | ⟨1, _⟩ => rfl | ⟨2, _⟩ => rfl | ⟨3, _⟩ => rfl | ⟨4, _⟩ => rfl)
theorem idxTr (s : Fin 3) (b : Fin 2) (h : Fin 16) (n : Fin 2048) (d : Fin 64) :
    idx_main_v5 (ix5 s b h n d) = ix5 b n s h d :=
  funext fun a => Fin.ext (by match a with | ⟨0, _⟩ => rfl | ⟨1, _⟩ => rfl | ⟨2, _⟩ => rfl | ⟨3, _⟩ => rfl | ⟨4, _⟩ => rfl)
theorem idxSplit (b : Fin 2) (n : Fin 2048) (s : Fin 3) (h : Fin 16) (d : Fin 64) :
    idx_main_v4 (ix5 b n s h d) = ix3 b n (col s h d) :=
  funext fun a => Fin.ext (by
    have hb := b.isLt; have hn := n.isLt; have hs := s.isLt; have hh := h.isLt; have hd := d.isLt
    match a with
    | ⟨0, _⟩ => show ((((b.val * 2048 + n.val) * 3 + s.val) * 16 + h.val) * 64 + d.val) / 6291456 = b.val; omega
    | ⟨1, _⟩ => show ((((b.val * 2048 + n.val) * 3 + s.val) * 16 + h.val) * 64 + d.val) / 3072 % 2048 = n.val; omega
    | ⟨2, _⟩ => show ((((b.val * 2048 + n.val) * 3 + s.val) * 16 + h.val) * 64 + d.val) % 3072 = s.val * 1024 + h.val * 64 + d.val; omega)

section
variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The flat query/key/value array of the arguments. -/
abbrev Q : Fin 4096 → Fin 3072 → EReal := qkv (X x0) (W x1) (B x2)

theorem q_apply (b : Fin 2) (h : Fin 16) (n : Fin 2048) (d : Fin 64) :
    val_main_v7 (F := Ideal) x0 x1 x2 (ix4 b h n d) = Q x0 x1 x2 (row b n) (col 0 h d) := by
  rw [val_main_v7_apply, idxHead, val_main_v6_apply, idxSlice0, val_main_v5_apply, idxTr, val_main_v4_apply, idxSplit, qkv_apply]
theorem k_apply (b : Fin 2) (h : Fin 16) (n : Fin 2048) (d : Fin 64) :
    val_main_v9 (F := Ideal) x0 x1 x2 (ix4 b h n d) = Q x0 x1 x2 (row b n) (col 1 h d) := by
  rw [val_main_v9_apply, show idx_main_v9 (ix4 b h n d) = ix5 (0 : Fin 1) b h n d from idxHead b h n d, val_main_v8_apply, idxSlice1,
    val_main_v5_apply, idxTr, val_main_v4_apply, idxSplit, qkv_apply]
theorem v_apply (b : Fin 2) (h : Fin 16) (n : Fin 2048) (d : Fin 64) :
    val_main_v11 (F := Ideal) x0 x1 x2 (ix4 b h n d) = Q x0 x1 x2 (row b n) (col 2 h d) := by
  rw [val_main_v11_apply, show idx_main_v11 (ix4 b h n d) = ix5 (0 : Fin 1) b h n d from idxHead b h n d, val_main_v10_apply, idxSlice2,
    val_main_v5_apply, idxTr, val_main_v4_apply, idxSplit, qkv_apply]

/-! ## Scores, their row maximum, the exponentials and their row sum -/

/-- The scaled scores of query row (b, n) of head h against every key. -/
abbrev sc (b : Fin 2) (h : Fin 16) (n : Fin 2048) : Fin 2048 → EReal :=
  fun m => (∑ d, Q x0 x1 x2 (row b n) (col 0 h d) * Q x0 x1 x2 (row b m) (col 1 h d)) * C8

theorem lidx12 (b : Fin 2) (h : Fin 16) (n m : Fin 2048) (k : Fin 64) :
    lidx_main_v12 (ix4 b h n m) k = ix4 b h n k :=
  funext fun a => Fin.ext (by match a with | ⟨0, _⟩ => rfl | ⟨1, _⟩ => rfl | ⟨2, _⟩ => rfl | ⟨3, _⟩ => rfl)
theorem ridx12 (b : Fin 2) (h : Fin 16) (n m : Fin 2048) (k : Fin 64) :
    ridx_main_v12 (ix4 b h n m) k = ix4 b h m k :=
  funext fun a => Fin.ext (by match a with | ⟨0, _⟩ => rfl | ⟨1, _⟩ => rfl | ⟨2, _⟩ => rfl | ⟨3, _⟩ => rfl)

theorem sc_apply (b : Fin 2) (h : Fin 16) (n m : Fin 2048) :
    val_main_v14 (F := Ideal) x0 x1 x2 (ix4 b h n m) = sc x0 x1 x2 b h n m := by
  rw [val_main_v14_apply, val_main_v12_apply, val_main_v13_apply, val_main_cst_apply]
  simp only [lidx12, ridx12, q_apply, k_apply, Ideal.mulf_def, Ideal.ofBits_def]
  rfl

end

section
variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

theorem red3 : S2x16x2048x2048.Reduces [3] S2x16x2048 := by decide

/-- The reduced index (b, h, n) with key position k put back is (b, h, n, k). -/
theorem lift3 (b : Fin 2) (h : Fin 16) (n : Fin 2048) (k : Fin (S2x16x2048x2048.size 3)) :
    red3.lift (ix3 b h n) k = ix4 b h n (⟨k.val, k.isLt⟩ : Fin 2048) :=
  funext fun c => Fin.ext (by match c with | ⟨0, _⟩ => rfl | ⟨1, _⟩ => rfl | ⟨2, _⟩ => rfl | ⟨3, _⟩ => rfl)

/-- The row maximum is the running maximum of the scores from the initial value. -/
theorem rowmax_apply (b : Fin 2) (h : Fin 16) (n : Fin 2048) :
    val_main_v15 (F := Ideal) x0 x1 x2 (ix3 b h n) = (Finset.univ : Finset (Fin 2048)).fold max NEG (sc x0 x1 x2 b h n) := by
  unfold val_main_v15
  rw [Host.reduce_eq_fold_single FloatOps.maximumf _ _ reducesTo_S2x16x2048x2048_S2x16x2048_d3 red3 h_S_]
  have hf : (val_main_v14 (F := Ideal) x0 x1 x2 ∘ red3.lift (ix3 b h n)) = fun k : Fin 2048 => sc x0 x1 x2 b h n k :=
    funext fun k => by rw [Function.comp_apply, lift3, sc_apply]; rfl
  exact congrArg (fun f => Finset.fold max NEG f (Finset.univ : Finset (Fin 2048))) hf

end

section
variable (x0 : (⟨S2x2048x1024, .f32⟩ : BufTy).Contents (Elt Ideal)) (x1 : (⟨S3072x1024, .f32⟩ : BufTy).Contents (Elt Ideal))
  (x2 : (⟨S3072, .f32⟩ : BufTy).Contents (Elt Ideal))

/-- The maximum that is subtracted, and the exponentials. -/
abbrev mx (b : Fin 2) (h : Fin 16) (n : Fin 2048) : EReal :=
  max NEG ((Finset.univ : Finset (Fin 2048)).fold max NEG (sc x0 x1 x2 b h n))
abbrev pe (b : Fin 2) (h : Fin 16) (n : Fin 2048) : Fin 2048 → EReal :=
  fun m => Ideal.exp (sc x0 x1 x2 b h n m - mx x0 x1 x2 b h n)

theorem mx_apply (b : Fin 2) (h : Fin 16) (n : Fin 2048) :
    val_main_v17 (F := Ideal) x0 x1 x2 (ix3 b h n) = mx x0 x1 x2 b h n := by
  rw [val_main_v17_apply, val_main_v16_apply, val_main_cst_1_apply, rowmax_apply]
  rfl

theorem idxRow (b : Fin 2) (h : Fin 16) (n m : Fin 2048) : idx_main_v18 (idx_main_v19 (ix4 b h n m)) = ix3 b h n :=
  funext fun a => Fin.ext (by match a with | ⟨0, _⟩ => rfl | ⟨1, _⟩ => rfl | ⟨2, _⟩ => rfl)

theorem pe_apply (b : Fin 2) (h : Fin 16) (n m : Fin 2048) :
    val_main_v21 (F := Ideal) x0 x1 x2 (ix4 b h n m) = pe x0 x1 x2 b h n m := by
  rw [val_main_v21_apply, val_main_v20_apply, val_main_v19_apply, val_main_v18_apply, idxRow, mx_apply, sc_apply]
  rfl

theorem idxSum (b : Fin 2) (h : Fin 16) (n : Fin 2048) (k : Fin 2048) : idx_main_v22 (ix3 b h n) k = ix4 b h n k :=
  funext fun a => Fin.ext (by match a with | ⟨0, _⟩ => rfl | ⟨1, _⟩ => rfl | ⟨2, _⟩ => rfl | ⟨3, _⟩ => rfl)

theorem den_apply (b : Fin 2) (h : Fin 16) (n : Fin 2048) :
    val_main_v22 (F := Ideal) x0 x1 x2 (ix3 b h n) = Z + ∑ m, pe x0 x1 x2 b h n m := by
  rw [val_main_v22_apply, val_main_cst_2_apply]
  simp only [idxSum, pe_apply, Ideal.ofBits_def]
  rfl

theorem idxRow' (b : Fin 2) (h : Fin 16) (n m : Fin 2048) : idx_main_v23 (idx_main_v24 (ix4 b h n m)) = ix3 b h n :=
  funext fun a => Fin.ext (by match a with | ⟨0, _⟩ => rfl | ⟨1, _⟩ => rfl | ⟨2, _⟩ => rfl)

theorem weight_apply (b : Fin 2) (h : Fin 16) (n m : Fin 2048) :
    val_main_v25 (F := Ideal) x0 x1 x2 (ix4 b h n m)
      = Ideal.div (pe x0 x1 x2 b h n m) (Z + ∑ m', pe x0 x1 x2 b h n m') := by
  rw [val_main_v25_apply, val_main_v24_apply, val_main_v23_apply, idxRow', den_apply, pe_apply]
  rfl

/-! ## The weighted sum of the values, and the heads side by side -/

theorem lidx26 (b : Fin 2) (h : Fin 16) (n : Fin 2048) (d : Fin 64) (k : Fin 2048) :
    lidx_main_v26 (ix4 b h n d) k = ix4 b h n k :=
  funext fun a => Fin.ext (by match a with | ⟨0, _⟩ => rfl | ⟨1, _⟩ => rfl | ⟨2, _⟩ => rfl | ⟨3, _⟩ => rfl)
theorem ridx26 (b : Fin 2) (h : Fin 16) (n : Fin 2048) (d : Fin 64) (k : Fin 2048) :
    ridx_main_v26 (ix4 b h n d) k = ix4 b h k d :=
  funext fun a => Fin.ext (by match a with | ⟨0, _⟩ => rfl | ⟨1, _⟩ => rfl | ⟨2, _⟩ => rfl | ⟨3, _⟩ => rfl)

theorem head_apply (b : Fin 2) (h : Fin 16) (n : Fin 2048) (d : Fin 64) :
    val_main_v26 (F := Ideal) x0 x1 x2 (ix4 b h n d)
      = attR (fun d' => Q x0 x1 x2 (row b n) (col 0 h d')) (fun m d' => Q x0 x1 x2 (row b m) (col 1 h d'))
          (fun m => Q x0 x1 x2 (row b m) (col 2 h d)) := by
  rw [val_main_v26_apply]
  simp only [lidx26, ridx26, weight_apply, v_apply]
  rfl

theorem idxMerge (b : Fin 2) (n : Fin 2048) (j : Fin 1024) :
    idx_main_v27 (idx_main_v28 (ix3 b n j)) = ix4 b (hOf j) n (dOf j) :=
  funext fun a => Fin.ext (by
    have hb := b.isLt; have hn := n.isLt; have hj := j.isLt
    match a with
    | ⟨0, _⟩ => show ((b.val * 2048 + n.val) * 1024 + j.val) / 2097152 = b.val; omega
    | ⟨1, _⟩ => show ((b.val * 2048 + n.val) * 1024 + j.val) / 64 % 16 = j.val / 64; omega
    | ⟨2, _⟩ => show ((b.val * 2048 + n.val) * 1024 + j.val) / 1024 % 2048 = n.val; omega
    | ⟨3, _⟩ => show ((b.val * 2048 + n.val) * 1024 + j.val) % 64 = j.val % 64; omega)

theorem attn_apply (b : Fin 2) (n : Fin 2048) (j : Fin 1024) :
    val_main_v28 (F := Ideal) x0 x1 x2 (ix3 b n j) = attnR (Q x0 x1 x2) (row b n) j := by
  rw [val_main_v28_apply, val_main_v27_apply, idxMerge, head_apply]
  simp only [attnR, bOf_row]

end

/-! ## The output projection -/

theorem lidx29 (b : Fin 2) (n : Fin 2048) (o : Fin 1024) (k : Fin 1024) : lidx_main_v29 (ix3 b n o) k = ix3 b n k :=
  funext fun a => Fin.ext (by match a with | ⟨0, _⟩ => rfl | ⟨1, _⟩ => rfl | ⟨2, _⟩ => rfl)
theorem ridx29 (b : Fin 2) (n : Fin 2048) (o : Fin 1024) (k : Fin 1024) : ridx_main_v29 (ix3 b n o) k = ix2 o k :=
  funext fun a => Fin.ext (by match a with | ⟨0, _⟩ => rfl | ⟨1, _⟩ => rfl)
theorem idxBias (b : Fin 2) (n : Fin 2048) (o : Fin 1024) : idx_main_v30 (idx_main_v31 (ix3 b n o)) = ix1 o :=
  funext fun a => Fin.ext (by match a with | ⟨0, _⟩ => rfl)

/-- The reference's result at (b, n, o) is the specification at row (b, n), column o. -/
theorem ref_apply (x0 : (⟨S2x2048x1024, .f32⟩ : BufTy).Contents (Elt Ideal)) (x1 : (⟨S3072x1024, .f32⟩ : BufTy).Contents (Elt Ideal))
    (x2 : (⟨S3072, .f32⟩ : BufTy).Contents (Elt Ideal)) (x3 : (⟨S1024x1024, .f32⟩ : BufTy).Contents (Elt Ideal))
    (x4 : (⟨S1024, .f32⟩ : BufTy).Contents (Elt Ideal)) (b : Fin 2) (n : Fin 2048) (o : Fin 1024) :
    Cert.ReferenceIdeal.Read.val_main_v32 x0 x1 x2 x3 x4 (ValueIdx.ix3 b n o)
      = Cert.Spec.fwdR (fun r c => x0 (ValueIdx.ix3 (Cert.Spec.bOf r) (Cert.Spec.nOf r) c)) (fun o' c => x1 (ValueIdx.ix2 o' c))
          (fun o' => x2 (ValueIdx.ix1 o')) (fun o' c => x3 (ValueIdx.ix2 o' c)) (fun o' => x4 (ValueIdx.ix1 o')) (Cert.Spec.row b n) o := by
  rw [val_main_v32_apply, val_main_v29_apply, val_main_v31_apply, val_main_v30_apply]
  simp only [lidx29, ridx29, idxBias, attn_apply, Ideal.addf_def, fwdR, lin]

end Cert.ReferenceIdeal.RefValue

end
-- ==== Proof.Finite.lean ====
import proofs.«423763_j74002286510487_3_alg».proof.Pre_finite_inputs
import proofs.«423763_j74002286510487_3_alg».proof.Proof.Gen.Pre_finite_inputs
import proofs.«423763_j74002286510487_3_alg».proof.Proof.Spec
import Idealize.ShloMosaic.Lib.ReduceAll
import Idealize.ShloMosaic.Lib.ValueIdx
import Idealize.ShloMosaic.PureOps.Ideal

/-
  From the precondition to "every input entry is a real number".  The precondition is the conjunction
  of five tests "every entry a of the array has |a| < +∞", and its value is 1.  A conjunction that is 1
  has both sides 1; a reduction by "and" over all axes that is 1 met a 1 at every index; and at the
  extended reals |a| = max a (-a) is below ⊤ only when a is neither ⊥ nor ⊤, that is, a real number.
-/

noncomputable section

namespace Cert.Finite

open Idealize.ShloMosaic Cert.Pre_finite_inputs

/-- The shape of a scalar has one index. -/
instance : Subsingleton S_.Idx := ⟨fun a b => funext fun d => d.elim0⟩

/-- The pattern of +∞ denotes ⊤. -/
theorem inf_eq : (Ideal.ofBits .f32 0x7F800000#32 : EReal) = ⊤ := by simp [Ideal.ofBits, Ideal.ieee]

/-- An extended real whose absolute value is below ⊤ is a real number. -/
theorem real_of_lt (x : EReal) (h : Ideal.cmp .olt (max x (-x)) ⊤ = 1#1) : Cert.Spec.IsReal x := by
  induction x using EReal.rec with
  | bot => simp [Ideal.cmp] at h
  | top => simp [Ideal.cmp] at h
  | coe r => exact ⟨r, rfl⟩

/-- One test: if "all |a| < +∞" is 1, every entry of a is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf CmpFPredicate.olt (Host.absf a) (broadcastInDim s ![] hb (constant S_ FTy.f32 0x7F800000#32)))
        (constantI S_ 1 1#1) hr hu ValueIdx.ix0 = 1#1) (i : s.Idx) : Cert.Spec.IsReal (a i) := by
  have hi := Host.reduce_andi_all _ _ hr hu _ e i
  dsimp only [cmpf, Host.absf, broadcastInDim, constant] at hi
  have hi' : Ideal.cmp .olt (max (a i) (-(a i))) (Ideal.ofBits .f32 0x7F800000#32) = 1#1 := hi
  rw [inf_eq] at hi'
  exact real_of_lt _ hi'

theorem real_of_pre [hP : Cert.Pre_finite_inputs.Facts] (a0 : FVec Ideal S2x2048x1024 .f32) (a1 : FVec Ideal S3072x1024 .f32)
    (a2 : FVec Ideal S3072 .f32) (a3 : FVec Ideal S1024x1024 .f32) (a4 : FVec Ideal S1024 .f32)
    (h : Cert.Pre_finite_inputs.fn (F := Ideal) a0 a1 a2 a3 a4 = fun _ => 1#1) :
    (∀ i, Cert.Spec.IsReal (a0 i)) ∧ (∀ i, Cert.Spec.IsReal (a1 i)) ∧ (∀ i, Cert.Spec.IsReal (a2 i))
      ∧ (∀ i, Cert.Spec.IsReal (a3 i)) ∧ (∀ i, Cert.Spec.IsReal (a4 i)) := by
  have h0 := congrFun h ValueIdx.ix0
  dsimp only [fn, fn_part1, andi] at h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all a0 _ _ _ h0, real_of_all a1 _ _ _ h1, real_of_all a2 _ _ _ h2, real_of_all a3 _ _ _ h3,
    real_of_all a4 _ _ _ h4⟩

end Cert.Finite

end
-- ==== Proof.lean ====
/-
  The five claims.  Both kernel programs run as one list of segments (host operations and the three regions), which
  gives their frames and, at the extended reals, the result array as the flat specification in the kernel's
  arrangement (scale the queries, divide the weighted values by the sum of the exponentials).  The reference's run
  gives its result as the same specification in the reference's arrangement (scale the scores, divide each
  exponential by the sum).  Under the precondition every input entry is a real number, and on real inputs the two
  arrangements are one function.  The idealization rewrote nothing, so it preserves trivially.
-/
import proofs.«423763_j74002286510487_3_alg».proof.Defs
import proofs.«423763_j74002286510487_3_alg».proof.Proof.Gen.Kernel
import proofs.«423763_j74002286510487_3_alg».proof.Proof.Gen.KernelIdeal
import proofs.«423763_j74002286510487_3_alg».proof.Proof.Gen.ReferenceIdeal
import proofs.«423763_j74002286510487_3_alg».proof.Proof.Gen.Pre_finite_inputs
import proofs.«423763_j74002286510487_3_alg».proof.Proof.Gen.ReferenceIdeal.Run
import proofs.«423763_j74002286510487_3_alg».proof.Proof.Gen.ReferenceIdeal.Read
import proofs.«423763_j74002286510487_3_alg».proof.Proof.K.Frame
import proofs.«423763_j74002286510487_3_alg».proof.Proof.KI.Frame
import proofs.«423763_j74002286510487_3_alg».proof.Proof.KI.Result
import proofs.«423763_j74002286510487_3_alg».proof.Proof.Ref
import proofs.«423763_j74002286510487_3_alg».proof.Proof.Finite
import proofs.«423763_j74002286510487_3_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- The two results agree index by index: the reference's is the specification in its arrangement of the reference's
    arguments, which are the kernel's; the kernel's is the specification in its arrangement; the inputs are real. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v32 m' c = Cert.KernelIdeal.Hand.W6 m ρ c (Proc.devRef .tc Cert.KernelIdeal.main_v9) := by
  obtain ⟨r0, r1, r2, -, -⟩ := Cert.Finite.real_of_pre _ _ _ _ _ (hpre c)
  rw [Cert.ReferenceIdeal.Read.val_main_v32_eq, h0, h1, h2, h3, h4]
  funext i
  obtain ⟨b, n, o, rfl⟩ : ∃ (b : Fin 2) (n : Fin 2048) (o : Fin 1024), i = ix3 b n o := ⟨i 0, i 1, i 2, eq_ix3 i⟩
  rw [Cert.ReferenceIdeal.RefValue.ref_apply]
  refine Eq.trans ?_ (Cert.KernelIdeal.Hand.kernel_apply m ρ c b n o).symm
  exact congrFun (congrFun (Cert.Spec.fwdK_eq_fwdR _ _ _ _ _ (fun r k => r0 _) (fun o' k => r1 _) (fun o' => r2 _)).symm _) _

theorem algebraic : Cert.algebraic_KernelIdeal_ReferenceIdeal := by
  intro m ρ m' ρ' hpre hagree
  refine ⟨fun c => Cert.KernelIdeal.Hand.W6 m ρ c (Proc.devRef .tc Cert.KernelIdeal.main_v9),
    Cert.KernelIdeal.Hand.run_read (F := Ideal) m ρ, ?_⟩
  refine (θ_run Cert.ReferenceIdeal.defs _ _).mono (fun _ h c => ⟨(h c).1.trans ?_, (h c).2⟩)
    (Cert.ReferenceIdeal.Value.run (F := Ideal) m' ρ')
  exact results_eq m ρ m' hpre c (hagree c).1 (hagree c).2.1 (hagree c).2.2.1 (hagree c).2.2.2.1 (hagree c).2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
